-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S1024x1024 : Shape := ⟨2, ![1024, 1024]⟩
abbrev S1024x2048 : Shape := ⟨2, ![1024, 2048]⟩
abbrev S32 : Shape := ⟨1, ![32]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  main_v18

def fn {F : FTy → Type} [FloatOps F] (main_arg0 : FVec F S32x512x1024 .f32) (main_arg1 : FVec F S32x512x1024 .f32) (main_arg2 : FVec F S1024x1024 .f32) (main_arg3 : FVec F S1024x2048 .f32) (main_arg4 : IVec S32 32) (main_arg5 : IVec S32 32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_v13 main_v16
-- ==== Kernel.lean ====
abbrev S32x512x1024 : Shape := ⟨3, ![32, 512, 1024]⟩
abbrev S1024x1024 : Shape := ⟨2, ![1024, 1024]⟩
abbrev S1024x2048 : Shape := ⟨2, ![1024, 2048]⟩
abbrev S32 : Shape := ⟨1, ![32]⟩
abbrev S2048x1024 : Shape := ⟨2, ![2048, 1024]⟩
abbrev S32x512x512 : Shape := ⟨3, ![32, 512, 512]⟩
abbrev S1x256x1024 : Shape := ⟨3, ![1, 256, 1024]⟩
abbrev S1x512x1024 : Shape := ⟨3, ![1, 512, 1024]⟩
abbrev S1x256x512 : Shape := ⟨3, ![1, 256, 512]⟩
abbrev S1 : Shape := ⟨1, ![1]⟩
abbrev S256x1024 : Shape := ⟨2, ![256, 1024]⟩
abbrev S512x1024 : Shape := ⟨2, ![512, 1024]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩

abbrev nBuf : Space → Nat
  | .hbm => 12
  | .vmem => 10
  | .smem => 2
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S1024x1024, .f32⟩
  | .hbm, ⟨3, _⟩ => ⟨S1024x2048, .f32⟩
  | .hbm, ⟨4, _⟩ => ⟨S32x512x1024, .bf16⟩
  | .hbm, ⟨5, _⟩ => ⟨S32x512x1024, .bf16⟩
  | .hbm, ⟨6, _⟩ => ⟨S1024x1024, .f32⟩
  | .hbm, ⟨7, _⟩ => ⟨S1024x1024, .bf16⟩
  | .hbm, ⟨8, _⟩ => ⟨S2048x1024, .f32⟩
  | .hbm, ⟨9, _⟩ => ⟨S2048x1024, .bf16⟩
  | .hbm, ⟨10, _⟩ => ⟨S32x512x1024, .f32⟩
  | .hbm, ⟨11, _⟩ => ⟨S32x512x512, .f32⟩
  | .local _ .vmem, ⟨0, _⟩ => ⟨S1x256x1024, .bf16⟩
  | .local _ .vmem, ⟨1, _⟩ => ⟨S1x256x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S2048x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x512, .f32⟩
  | .local _ .vmem, ⟨9, _⟩ => ⟨S1x256x512, .f32⟩
  | .local _ .smem, ⟨0, _⟩ => ⟨S32, .i32⟩
  | .local _ .smem, ⟨1, _⟩ => ⟨S32, .i32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 2], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  transposes_S1024x1024_S1024x1024_1_0 : S1024x1024.Transposes [1, 0] S1024x1024
  transposes_S1024x2048_S2048x1024_1_0 : S1024x2048.Transposes [1, 0] S2048x1024
  numel1_S1 : S1.numel = 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  iota_S256x512_d0_w32 : S256x512.Iotas .tc 32 [0]
  iota_S256x512_d1_w32 : S256x512.Iotas .tc 32 [1]
  reduces_S256x512_S256 : S256x512.Reduces [1] S256
  shapeCasts_S256_S256x1 : S256.ShapeCasts S256x1
  broadcasts_S256x1_S256x512 : S256x1.Broadcasts S256x512
  concatenates_S256x1024_S256x1024_S256x2048_d1 : Shape.Concatenates [S256x1024, S256x1024] S256x2048 1
  shapeCasts_S256x1024_S1x256x1024 : S256x1024.ShapeCasts S1x256x1024
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x1024_S1024x1024_S256x1024_1_0_0_1_n_n_wf : DotDims.WF S256x1024 S1024x1024 S256x1024 [1] [0] [0] [1] [] []
  dot_S256x1024_S512x1024_S256x512_1_1_0_0_n_n_wf : DotDims.WF S256x1024 S512x1024 S256x512 [1] [1] [0] [0] [] []
  dot_S256x512_S512x1024_S256x1024_1_0_0_1_n_n_wf : DotDims.WF S256x512 S512x1024 S256x1024 [1] [0] [0] [1] [] []
  dot_S256x2048_S2048x1024_S256x1024_1_0_0_1_n_n_wf : DotDims.WF S256x2048 S2048x1024 S256x1024 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x512x1024.size a
  hwx0_0 : ∀ i : grid0.Coords, EltTy.bits .bf16 = 32 ∨ (Rect.block (s := S32x512x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x512x1024.size a
  hwx0_1 : ∀ i : grid0.Coords, EltTy.bits .bf16 = 32 ∨ (Rect.block (s := S32x512x1024) S1x512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S32x512x1024.size a
  hwx0_4 : ∀ i : grid0.Coords, EltTy.bits .f32 = 32 ∨ (Rect.block (s := S32x512x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x512.size a ≤ S32x512x512.size a
  hwx0_5 : ∀ i : grid0.Coords, EltTy.bits .f32 = 32 ∨ (Rect.block (s := S32x512x512) S1x256x512.size (cc0_transform_5 i) (hinb0_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev spec0_0 : Pipeline.WinSpec sig grid0.rank :=
  Pipeline.WinSpec.ofSpec (Memref.whole main_v0) S1x256x1024.size reads0_0 false false 2 stage0_0 sem0_0 nbuf0_0 hstage0_0

abbrev spec0_1 : Pipeline.WinSpec sig grid0.rank :=
  Pipeline.WinSpec.ofSpec (Memref.whole main_v1) S1x512x1024.size reads0_1 false false 2 stage0_1 sem0_1 nbuf0_1 hstage0_1

abbrev spec0_2 : Pipeline.WinSpec sig grid0.rank :=
  Pipeline.WinSpec.ofSpec (Memref.whole main_v3) S1024x1024.size reads0_2 false true 1 stage0_2 sem0_2 nbuf0_2 hstage0_2

abbrev spec0_3 : Pipeline.WinSpec sig grid0.rank :=
  Pipeline.WinSpec.ofSpec (Memref.whole main_v5) S2048x1024.size reads0_3 false true 1 stage0_3 sem0_3 nbuf0_3 hstage0_3

abbrev spec0_4 : Pipeline.WinSpec sig grid0.rank :=
  Pipeline.WinSpec.ofSpec (Memref.whole main_v6_0) S1x256x1024.size reads0_4 true false 2 stage0_4 sem0_4 nbuf0_4 hstage0_4

abbrev spec0_5 : Pipeline.WinSpec sig grid0.rank :=
  Pipeline.WinSpec.ofSpec (Memref.whole main_v6_1) S1x256x512.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S32x512x1024 : Shape := ⟨3, ![32, 512, 1024]⟩
abbrev S1024x1024 : Shape := ⟨2, ![1024, 1024]⟩
abbrev S1024x2048 : Shape := ⟨2, ![1024, 2048]⟩
abbrev S32 : Shape := ⟨1, ![32]⟩
abbrev S512 : Shape := ⟨1, ![512]⟩
abbrev S1x512 : Shape := ⟨2, ![1, 512]⟩
abbrev S32x1 : Shape := ⟨2, ![32, 1]⟩
abbrev S32x512 : Shape := ⟨2, ![32, 512]⟩
abbrev S32x512x512 : Shape := ⟨3, ![32, 512, 512]⟩
abbrev S32x512x1 : Shape := ⟨3, ![32, 512, 1]⟩
abbrev S32x1x512 : Shape := ⟨3, ![32, 1, 512]⟩
abbrev S_ : Shape := ⟨0, ![]⟩
abbrev S32x512x2048 : Shape := ⟨3, ![32, 512, 2048]⟩

abbrev nBuf : Space → Nat
  | .hbm => 51
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S1024x1024, .f32⟩
  | .hbm, ⟨3, _⟩ => ⟨S1024x2048, .f32⟩
  | .hbm, ⟨4, _⟩ => ⟨S32, .i32⟩
  | .hbm, ⟨5, _⟩ => ⟨S32, .i32⟩
  | .hbm, ⟨6, _⟩ => ⟨S512, .i32⟩
  | .hbm, ⟨7, _⟩ => ⟨S1x512, .i32⟩
  | .hbm, ⟨8, _⟩ => ⟨S32x1, .i32⟩
  | .hbm, ⟨9, _⟩ => ⟨S32x512, .i32⟩
  | .hbm, ⟨10, _⟩ => ⟨S32x512, .i32⟩
  | .hbm, ⟨11, _⟩ => ⟨S32x512, .i1⟩
  | .hbm, ⟨12, _⟩ => ⟨S512, .i32⟩
  | .hbm, ⟨13, _⟩ => ⟨S1x512, .i32⟩
  | .hbm, ⟨14, _⟩ => ⟨S32x1, .i32⟩
  | .hbm, ⟨15, _⟩ => ⟨S32x512, .i32⟩
  | .hbm, ⟨16, _⟩ => ⟨S32x512, .i32⟩
  | .hbm, ⟨17, _⟩ => ⟨S32x512, .i1⟩
  | .hbm, ⟨18, _⟩ => ⟨S32x512x1024, .f32⟩
  | .hbm, ⟨19, _⟩ => ⟨S32x512x512, .f32⟩
  | .hbm, ⟨20, _⟩ => ⟨S32x512x1, .i1⟩
  | .hbm, ⟨21, _⟩ => ⟨S32x1x512, .i1⟩
  | .hbm, ⟨22, _⟩ => ⟨S32x512x512, .i1⟩
  | .hbm, ⟨23, _⟩ => ⟨S32x512x512, .i1⟩
  | .hbm, ⟨24, _⟩ => ⟨S32x512x512, .i1⟩
  | .hbm, ⟨25, _⟩ => ⟨S_, .f32⟩
  | .hbm, ⟨26, _⟩ => ⟨S_, .f32⟩
  | .hbm, ⟨27, _⟩ => ⟨S32x512x512, .f32⟩
  | .hbm, ⟨28, _⟩ => ⟨S32x512x512, .f32⟩
  | .hbm, ⟨29, _⟩ => ⟨S_, .f32⟩
  | .hbm, ⟨30, _⟩ => ⟨S32x512, .f32⟩
  | .hbm, ⟨31, _⟩ => ⟨S_, .f32⟩
  | .hbm, ⟨32, _⟩ => ⟨S32x512, .f32⟩
  | .hbm, ⟨33, _⟩ => ⟨S32x512, .f32⟩
  | .hbm, ⟨34, _⟩ => ⟨S32x512x1, .f32⟩
  | .hbm, ⟨35, _⟩ => ⟨S32x512x512, .f32⟩
  | .hbm, ⟨36, _⟩ => ⟨S32x512x512, .f32⟩
  | .hbm, ⟨37, _⟩ => ⟨S32x512x512, .f32⟩
  | .hbm, ⟨38, _⟩ => ⟨S_, .f32⟩
  | .hbm, ⟨39, _⟩ => ⟨S32x512, .f32⟩
  | .hbm, ⟨40, _⟩ => ⟨S32x512x1, .f32⟩
  | .hbm, ⟨41, _⟩ => ⟨S32x512x512, .f32⟩
  | .hbm, ⟨42, _⟩ => ⟨S32x512x512, .f32⟩
  | .hbm, ⟨43, _⟩ => ⟨S_, .f32⟩
  | .hbm, ⟨44, _⟩ => ⟨S_, .f32⟩
  | .hbm, ⟨45, _⟩ => ⟨S32x512x512, .f32⟩
  | .hbm, ⟨46, _⟩ => ⟨S32x512x512, .f32⟩
  | .hbm, ⟨47, _⟩ => ⟨S32x512x1024, .f32⟩
  | .hbm, ⟨48, _⟩ => ⟨S32x512x2048, .f32⟩
  | .hbm, ⟨49, _⟩ => ⟨S32x512x1024, .f32⟩
  | .hbm, ⟨50, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S32_S32x1_0 : S32.BroadcastsInDim S32x1 (![0] : Fin 1 → Fin S32x1.rank)
  bcast_S1x512_S32x512_0_1 : S1x512.BroadcastsInDim S32x512 (![0, 1] : Fin 2 → Fin S32x512.rank)
  bcast_S32x1_S32x512_0_1 : S32x1.BroadcastsInDim S32x512 (![0, 1] : Fin 2 → Fin S32x512.rank)
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  bcast_S_S32x512x512 : S_.BroadcastsInDim S32x512x512 (![] : Fin 0 → Fin S32x512x512.rank)
  reducesTo_S32x512x512_S32x512_d2 : S32x512x512.ReducesTo [2] S32x512
  h_S_ : 0 < S_.numel
  bcast_S_S32x512 : S_.BroadcastsInDim S32x512 (![] : Fin 0 → Fin S32x512.rank)
  concatenates_S32x512x1024_S32x512x1024_S32x512x2048_d2 : Shape.Concatenates [S32x512x1024, S32x512x1024] S32x512x2048 2
  dot_S32x512x1024_S1024x1024_S32x512x1024_2_1_01_0_n_n_wf : DotDims.WF S32x512x1024 S1024x1024 S32x512x1024 [2] [1] [0, 1] [0] [] []
  dot_S32x512x1024_S32x512x1024_S32x512x512_2_2_1_1_0_0_wf : DotDims.WF S32x512x1024 S32x512x1024 S32x512x512 [2] [2] [1] [1] [0] [0]
  dot_S32x512x512_S32x512x1024_S32x512x1024_2_1_1_2_0_0_wf : DotDims.WF S32x512x512 S32x512x1024 S32x512x1024 [2] [1] [1] [2] [0] [0]
  dot_S32x512x2048_S1024x2048_S32x512x1024_2_1_01_0_n_n_wf : DotDims.WF S32x512x2048 S1024x2048 S32x512x1024 [2] [1] [0, 1] [0] [] []

variable [Facts₀]

def dot_S32x512x1024_S1024x1024_S32x512x1024_2_1_01_0_n_n : DotDims S32x512x1024 S1024x1024 S32x512x1024 where
  lhsContracting := [2]
  rhsContracting := [1]
  lhsNonContracting := [0, 1]
  rhsNonContracting := [0]
  lhsBatch := []
  rhsBatch := []
  wf := dot_S32x512x1024_S1024x1024_S32x512x1024_2_1_01_0_n_n_wf
def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf
def dot_S32x512x512_S32x512x1024_S32x512x1024_2_1_1_2_0_0 : DotDims S32x512x512 S32x512x1024 S32x512x1024 where
  lhsContracting := [2]
  rhsContracting := [1]
  lhsNonContracting := [1]
  rhsNonContracting := [2]
  lhsBatch := [0]
  rhsBatch := [0]
  wf := dot_S32x512x512_S32x512x1024_S32x512x1024_2_1_1_2_0_0_wf
def dot_S32x512x2048_S1024x2048_S32x512x1024_2_1_01_0_n_n : DotDims S32x512x2048 S1024x2048 S32x512x1024 where
  lhsContracting := [2]
  rhsContracting := [1]
  lhsNonContracting := [0, 1]
  rhsNonContracting := [0]
  lhsBatch := []
  rhsBatch := []
  wf := dot_S32x512x2048_S1024x2048_S32x512x1024_2_1_01_0_n_n_wf

class Facts : Prop extends Facts₀ where

variable [Facts]
-- ==== Proof.Spec.lean ====
/-
  One query row of masked dot-product attention with input and output projections, as functions of the
  row and of the matrices it meets, over the extended reals.

  For a query row `x` (1024 features), a context `C` (512 positions by 1024 features), an input projection `Wi`
  (1024 by 1024, applied as `x · Wiᵀ`) and an output projection `Wo` (1024 by 2048, applied as `c · Woᵀ`):
    p e   = ∑ d, x d · Wi e d                         the projected query
    s k   = ∑ d, p d · C k d                          its score against context position k
    s' k  = if padded k then NEG else s k             padded positions get the finite stand-in NEG
    M     = max over k of s' k  (from -∞)             the row's maximum
    E k   = exp (s' k - M),   Z = ∑ k, E k
    w k   = if padded k then 0 else E k / Z           the attention weights: the second result
    m d   = ∑ k, w k · C k d                          the mixed context
    o d   = tanh (∑ e, (m ++ p) e · Wo d e)           the first result
  A position (q, k) is padded when the query position `q` is at or past the query length, or `k` at or past the
  context length, both compared as signed 32-bit words.
  Every sum is over a `Fin`, every literal stays the word the programs print: nothing here is evaluated.
-/
import Idealize.ShloMosaic.PureOps.Ideal
import Idealize.ShloMosaic.Lib.ValueIdx

noncomputable section

namespace Attn

open Idealize.ShloMosaic

/-- Position `(q, k)` is padded: `q ≥ qlen` or `k ≥ clen`, signed, as one bit. `qv` is the query position's word. -/
def pad (qv ql cl : BitVec 32) (k : Fin 512) : BitVec 1 :=
  IntOp.ori (IntOp.cmpi .sge qv ql) (IntOp.cmpi .sge (BitVec.ofNat 32 k.val) cl)

/-- The projected query: `x · Wiᵀ`. -/
def proj (Wi : Fin 1024 → Fin 1024 → EReal) (x : Fin 1024 → EReal) (e : Fin 1024) : EReal :=
  ∑ d : Fin 1024, x d * Wi e d

/-- The score of a projected query against each context position. -/
def score (C : Fin 512 → Fin 1024 → EReal) (p : Fin 1024 → EReal) (k : Fin 512) : EReal :=
  ∑ d : Fin 1024, p d * C k d

/-- Scores with the padded positions replaced by the stand-in `-1e9` (its f32 word). -/
def masked (msk : Fin 512 → BitVec 1) (s : Fin 512 → EReal) (k : Fin 512) : EReal :=
  Scalar.select (msk k) (Ideal.ofBits .f32 0xCE6E6B28#32) (s k)

/-- A row's maximum, folded from `-∞` (its f32 word). -/
def rowMax (s : Fin 512 → EReal) : EReal :=
  (Finset.univ : Finset (Fin 512)).fold max (Ideal.ofBits .f32 0xFF800000#32) s

/-- The shifted exponentials of a row. -/
def expo (s : Fin 512 → EReal) (k : Fin 512) : EReal := Ideal.exp (s k - rowMax s)

/-- Their sum. -/
def denom (s : Fin 512 → EReal) : EReal := ∑ k : Fin 512, expo s k

/-- The softmax of a row with the padded positions zeroed afterwards. -/
def weight (msk : Fin 512 → BitVec 1) (s : Fin 512 → EReal) (k : Fin 512) : EReal :=
  Scalar.select (msk k) (Ideal.ofBits .f32 0x00000000#32) (Ideal.div (expo s k) (denom s))

/-- The context mixed by a row of weights. -/
def mix (C : Fin 512 → Fin 1024 → EReal) (w : Fin 512 → EReal) (d : Fin 1024) : EReal :=
  ∑ k : Fin 512, w k * C k d

/-- Two rows of 1024 side by side. -/
def joined (a b : Fin 1024 → EReal) (e : Fin 2048) : EReal :=
  if h : e.val < 1024 then a ⟨e.val, h⟩ else b ⟨e.val - 1024, by have := e.isLt; omega⟩

/-- The output projection `c · Woᵀ` under `tanh`. -/
def outp (Wo : Fin 1024 → Fin 2048 → EReal) (c : Fin 2048 → EReal) (d : Fin 1024) : EReal :=
  Ideal.tanh (∑ e : Fin 2048, c e * Wo d e)

/-- The attention weights of one query row: the second result's row. -/
def attnW (qv ql cl : BitVec 32) (Wi : Fin 1024 → Fin 1024 → EReal) (C : Fin 512 → Fin 1024 → EReal)
    (x : Fin 1024 → EReal) : Fin 512 → EReal :=
  weight (pad qv ql cl) (masked (pad qv ql cl) (score C (proj Wi x)))

/-- The output of one query row: the first result's row. -/
def attnOut (qv ql cl : BitVec 32) (Wi : Fin 1024 → Fin 1024 → EReal) (Wo : Fin 1024 → Fin 2048 → EReal)
    (C : Fin 512 → Fin 1024 → EReal) (x : Fin 1024 → EReal) : Fin 1024 → EReal :=
  outp Wo (joined (mix C (attnW qv ql cl Wi C x)) (proj Wi x))

end Attn

end
-- ==== Proof.KerRow.lean ====
/-
  The idealized kernel's body up to the softmax, read at one row of the block: the projected query block
  and the masked, normalised weights are the rows `proj` and `attnW` of Spec.lean.
-/
import proofs.«414341_j7404523618935_2_alg».proof.Proof.Gen.KernelIdeal.Skeleton
import proofs.«414341_j7404523618935_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Attn.Ker

open Idealize.ShloMosaic Idealize.ShloMosaic.ValueIdx Cert.KernelIdeal Cert.KernelIdeal.Gen

variable (i : grid0.Coords) (v1 v3 : BitVec 32)
  (x0 : Vec Ideal S1x256x1024 .bf16) (x1 : Vec Ideal S1x512x1024 .bf16)
  (x2 : Vec Ideal S1024x1024 .bf16)

/-! ## The projection matmul: rows of the query block against columns of the weight block -/

/-- The left operand's row coordinate is the output's row. -/
private theorem lhs_proj_0 (j : S256x1024.Idx) (q : dot_S256x1024_S1024x1024_S256x1024_1_0_0_1_n_n.contr.Idx) :
    (dot_S256x1024_S1024x1024_S256x1024_1_0_0_1_n_n.lhsIdx j q 0).val = (j 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- The left operand's column coordinate is the contraction position. -/
private theorem lhs_proj_1 (j : S256x1024.Idx) (q : dot_S256x1024_S1024x1024_S256x1024_1_0_0_1_n_n.contr.Idx) :
    (dot_S256x1024_S1024x1024_S256x1024_1_0_0_1_n_n.lhsIdx j q 1).val = (q ⟨0, by decide⟩).val :=
  dot_S256x1024_S1024x1024_S256x1024_1_0_0_1_n_n.lhsIdx_val_of_single rfl j q
/-- The right operand's row coordinate is the contraction position. -/
private theorem rhs_proj_0 (j : S256x1024.Idx) (q : dot_S256x1024_S1024x1024_S256x1024_1_0_0_1_n_n.contr.Idx) :
    (dot_S256x1024_S1024x1024_S256x1024_1_0_0_1_n_n.rhsIdx j q 0).val = (q ⟨0, by decide⟩).val :=
  dot_S256x1024_S1024x1024_S256x1024_1_0_0_1_n_n.rhsIdx_val_of_single rfl j q
/-- The right operand's column coordinate is the output's column. -/
private theorem rhs_proj_1 (j : S256x1024.Idx) (q : dot_S256x1024_S1024x1024_S256x1024_1_0_0_1_n_n.contr.Idx) :
    (dot_S256x1024_S1024x1024_S256x1024_1_0_0_1_n_n.rhsIdx j q 1).val = (j 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The projection matmul into the zero accumulator, read at `(r, e)`: the sum over the shared axis. -/
private theorem matmul_proj_apply (A : FVec Ideal S256x1024 .bf16) (B : FVec Ideal S1024x1024 .bf16) (r : Fin 256) (e : Fin 1024) :
    matmul dot_S256x1024_S1024x1024_S256x1024_1_0_0_1_n_n none A B (constant (F := Ideal) S256x1024 .f32 0x00000000#32) (ix2 r e)
      = ∑ d : Fin 1024, A (ix2 r d) * B (ix2 d e) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun d _ => ?_
  have hk := ValueIdx.contrEquiv1_symm_val dot_S256x1024_S1024x1024_S256x1024_1_0_0_1_n_n 1024 rfl rfl d
  have el : dot_S256x1024_S1024x1024_S256x1024_1_0_0_1_n_n.lhsIdx (ix2 r e) ((ValueIdx.contrEquiv1 dot_S256x1024_S1024x1024_S256x1024_1_0_0_1_n_n 1024 rfl rfl).symm d) = ix2 r d := funext fun a => Fin.ext (by
    match a with
    | ⟨0, _⟩ => exact lhs_proj_0 _ _
    | ⟨1, _⟩ => exact (lhs_proj_1 _ _).trans hk)
  have er : dot_S256x1024_S1024x1024_S256x1024_1_0_0_1_n_n.rhsIdx (ix2 r e) ((ValueIdx.contrEquiv1 dot_S256x1024_S1024x1024_S256x1024_1_0_0_1_n_n 1024 rfl rfl).symm d) = ix2 d e := funext fun a => Fin.ext (by
    match a with
    | ⟨0, _⟩ => exact (rhs_proj_0 _ _).trans hk
    | ⟨1, _⟩ => exact rhs_proj_1 _ _)
  rw [el, er]

/-- The projected query block at row `r`, feature `e`: row `r` of the query block against the weight block's column `e`. -/
theorem proj_apply (r : Fin 256) (e : Fin 1024) :
    k0_pay5 (F := Ideal) x0 x2 (ix2 r e)
      = Attn.proj (fun e d => x2 (ix2 d e)) (fun d => x0 (ix3 (0 : Fin 1) r d)) e := by
  unfold k0_pay5
  rw [truncf_apply, shapeCast_self]
  refine (matmul_proj_apply _ _ r e).trans ?_
  unfold Attn.proj
  refine Finset.sum_congr rfl fun d _ => ?_
  rw [shapeCast_1ab_ab_apply]

/-! ## Two column layouts: a vector as a one-column matrix, and one column spread over many -/

/-- An `[a]` array cast to `[a, 1]` reads, at `(p, u)`, the operand at `p`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row's reduced index with the column put back is the pair. -/
private theorem lift_row (h : S256x512.Reduces [1] S256) (r : Fin 256) (k : Fin 512) :
    h.lift (ix1 r) k = ix2 r k :=
  funext fun c => Fin.ext (by match c with | ⟨0, _⟩ => rfl | ⟨1, _⟩ => rfl)

/-! ## The score matmul: rows of the projected block against rows of the context block -/

/-- The left operand's row coordinate is the output's row. -/
private theorem lhs_score_0 (j : S256x512.Idx) (q : dot_S256x1024_S512x1024_S256x512_1_1_0_0_n_n.contr.Idx) :
    (dot_S256x1024_S512x1024_S256x512_1_1_0_0_n_n.lhsIdx j q 0).val = (j 0).val := by
  unfold DotDims.lhsIdx
  rw [dif_neg (show ¬(0 : Fin S256x1024.rank) ∈ dot_S256x1024_S512x1024_S256x512_1_1_0_0_n_n.lhsBatch by decide), dif_pos (show (0 : Fin S256x1024.rank) ∈ dot_S256x1024_S512x1024_S256x512_1_1_0_0_n_n.lhsNonContracting by decide)]
  rfl
/-- The left operand's column coordinate is the contraction position. -/
private theorem lhs_score_1 (j : S256x512.Idx) (q : dot_S256x1024_S512x1024_S256x512_1_1_0_0_n_n.contr.Idx) :
    (dot_S256x1024_S512x1024_S256x512_1_1_0_0_n_n.lhsIdx j q 1).val = (q ⟨0, by decide⟩).val :=
  dot_S256x1024_S512x1024_S256x512_1_1_0_0_n_n.lhsIdx_val_of_single rfl j q
/-- The right operand's row coordinate is the output's column. -/
private theorem rhs_score_0 (j : S256x512.Idx) (q : dot_S256x1024_S512x1024_S256x512_1_1_0_0_n_n.contr.Idx) :
    (dot_S256x1024_S512x1024_S256x512_1_1_0_0_n_n.rhsIdx j q 0).val = (j 1).val := by
  unfold DotDims.rhsIdx
  rw [dif_neg (show ¬(0 : Fin S512x1024.rank) ∈ dot_S256x1024_S512x1024_S256x512_1_1_0_0_n_n.rhsBatch by decide), dif_pos (show (0 : Fin S512x1024.rank) ∈ dot_S256x1024_S512x1024_S256x512_1_1_0_0_n_n.rhsNonContracting by decide)]
  rfl
/-- The right operand's column coordinate is the contraction position. -/
private theorem rhs_score_1 (j : S256x512.Idx) (q : dot_S256x1024_S512x1024_S256x512_1_1_0_0_n_n.contr.Idx) :
    (dot_S256x1024_S512x1024_S256x512_1_1_0_0_n_n.rhsIdx j q 1).val = (q ⟨0, by decide⟩).val :=
  dot_S256x1024_S512x1024_S256x512_1_1_0_0_n_n.rhsIdx_val_of_single rfl j q

/-- The score matmul into the zero accumulator, read at `(r, k)`: the sum over the shared feature axis. -/
private theorem matmul_score_apply (A : FVec Ideal S256x1024 .bf16) (B : FVec Ideal S512x1024 .bf16) (r : Fin 256) (k : Fin 512) :
    matmul dot_S256x1024_S512x1024_S256x512_1_1_0_0_n_n none A B (constant (F := Ideal) S256x512 .f32 0x00000000#32) (ix2 r k)
      = ∑ d : Fin 1024, A (ix2 r d) * B (ix2 k d) := by
  simp only [matmul]
  rw [Ideal.matmul_constant_zero_apply, ← Equiv.sum_comp (ValueIdx.contrEquiv1 dot_S256x1024_S512x1024_S256x512_1_1_0_0_n_n 1024 rfl rfl).symm]
  refine Finset.sum_congr rfl fun d _ => ?_
  have hk := ValueIdx.contrEquiv1_symm_val dot_S256x1024_S512x1024_S256x512_1_1_0_0_n_n 1024 rfl rfl d
  have el : dot_S256x1024_S512x1024_S256x512_1_1_0_0_n_n.lhsIdx (ix2 r k) ((ValueIdx.contrEquiv1 dot_S256x1024_S512x1024_S256x512_1_1_0_0_n_n 1024 rfl rfl).symm d) = ix2 r d := funext fun a => Fin.ext (by
    match a with
    | ⟨0, _⟩ => exact lhs_score_0 _ _
    | ⟨1, _⟩ => exact (lhs_score_1 _ _).trans hk)
  have er : dot_S256x1024_S512x1024_S256x512_1_1_0_0_n_n.rhsIdx (ix2 r k) ((ValueIdx.contrEquiv1 dot_S256x1024_S512x1024_S256x512_1_1_0_0_n_n 1024 rfl rfl).symm d) = ix2 k d := funext fun a => Fin.ext (by
    match a with
    | ⟨0, _⟩ => exact rhs_score_0 _ _
    | ⟨1, _⟩ => exact (rhs_score_1 _ _).trans hk)
  rw [el, er]

/-! ## The kernel's stages, named -/

/-- The raw scores of the block. -/
private def scoreK : FVec Ideal S256x512 .f32 :=
  matmul dot_S256x1024_S512x1024_S256x512_1_1_0_0_n_n none (k0_pay5 (F := Ideal) x0 x2) (k0_pay3 (F := Ideal) x1) (constant (F := Ideal) S256x512 .f32 0x00000000#32)

/-- The padding bits of the block. -/
private def maskK : IVec S256x512 1 :=
  ori (cmpi .sge (addi (broadcast S256x512 (Scalar.muli (BitVec.ofNat 32 (i 1).val) 256#32)) (iota .tc S256x512 32 [0] iota_S256x512_d0_w32)) (broadcast S256x512 v1))
    (cmpi .sge (iota .tc S256x512 32 [1] iota_S256x512_d1_w32) (broadcast S256x512 v3))

/-- The scores with the padded positions replaced. -/
private def maskedK : FVec Ideal S256x512 .f32 :=
  select (maskK i v1 v3) (broadcast S256x512 (Scalar.ofBits (F := Ideal) .f32 0xCE6E6B28#32)) (scoreK x0 x1 x2)

/-- Each row's maximum. -/
private def maxK : FVec Ideal S256 .f32 :=
  multiReduction (F := Ideal) .maximumf [1] S256 (maskedK i v1 v3 x0 x1 x2) 0xFF800000#32 reduces_S256x512_S256 (.inl rfl) rfl

/-- The shifted exponentials. -/
private def expoK : FVec Ideal S256x512 .f32 :=
  exp (subf (maskedK i v1 v3 x0 x1 x2)
    (broadcastTo S256x512 (shapeCast S256x1 (maxK i v1 v3 x0 x1 x2) shapeCasts_S256_S256x1) broadcasts_S256x1_S256x512))

/-- Each row's sum of them. -/
private def denomK : FVec Ideal S256 .f32 :=
  multiReduction (F := Ideal) .add [1] S256 (expoK i v1 v3 x0 x1 x2) 0x00000000#32 reduces_S256x512_S256 (.inl rfl) rfl

/-- The normalised weights with the padded positions zeroed. -/
private def weightK : FVec Ideal S256x512 .f32 :=
  select (maskK i v1 v3) (broadcast S256x512 (Scalar.ofBits (F := Ideal) .f32 0x00000000#32))
    (divf (expoK i v1 v3 x0 x1 x2)
      (broadcastTo S256x512 (shapeCast S256x1 (denomK i v1 v3 x0 x1 x2) shapeCasts_S256_S256x1) broadcasts_S256x1_S256x512))

/-- The kernel's weights are these stages composed. -/
private theorem pay6_eq : k0_pay6 (F := Ideal) i v1 v3 x0 x1 x2 = weightK i v1 v3 x0 x1 x2 := rfl

/-! ## Each stage read at a row -/

/-- Row `r`'s masked scores in the specification's terms. -/
private def rowS (r : Fin 256) : Fin 512 → EReal :=
  Attn.masked (Attn.pad (BitVec.ofNat 32 ((i 1).val * 256 + r.val)) v1 v3)
    (Attn.score (fun k d => x1 (ix3 (0 : Fin 1) k d))
      (Attn.proj (fun e d => x2 (ix2 d e)) (fun d => x0 (ix3 (0 : Fin 1) r d))))

/-- The raw score at `(r, k)`: the projected row against context position `k`. -/
private theorem scoreK_apply (r : Fin 256) (k : Fin 512) :
    scoreK x0 x1 x2 (ix2 r k)
      = Attn.score (fun k d => x1 (ix3 (0 : Fin 1) k d))
          (Attn.proj (fun e d => x2 (ix2 d e)) (fun d => x0 (ix3 (0 : Fin 1) r d))) k := by
  unfold scoreK
  refine (matmul_score_apply _ _ r k).trans ?_
  unfold Attn.score
  refine Finset.sum_congr rfl fun d _ => ?_
  rw [proj_apply]
  unfold k0_pay3
  rw [shapeCast_1ab_ab_apply]

/-- The query position's word: the block's offset times the block height, plus the row. -/
private theorem qword (n m : ℕ) :
    IntOp.addi (Scalar.muli (BitVec.ofNat 32 n) 256#32) (BitVec.ofNat 32 m) = BitVec.ofNat 32 (n * 256 + m) := by
  show BitVec.ofNat 32 n * BitVec.ofNat 32 256 + BitVec.ofNat 32 m = _
  rw [BitVec.ofNat_add, BitVec.ofNat_mul]

/-- The padding bit at `(r, k)`. -/
private theorem maskK_apply (r : Fin 256) (k : Fin 512) :
    maskK i v1 v3 (ix2 r k) = Attn.pad (BitVec.ofNat 32 ((i 1).val * 256 + r.val)) v1 v3 k := by
  unfold maskK Attn.pad
  show IntOp.ori (IntOp.cmpi .sge (IntOp.addi (Scalar.muli (BitVec.ofNat 32 (i 1).val) 256#32) (iota .tc S256x512 32 [0] iota_S256x512_d0_w32 (ix2 r k))) v1)
      (IntOp.cmpi .sge (iota .tc S256x512 32 [1] iota_S256x512_d1_w32 (ix2 r k)) v3) = _
  rw [iota_single_apply, iota_single_apply, qword]

/-- The masked score at `(r, k)`. -/
private theorem maskedK_apply (r : Fin 256) (k : Fin 512) :
    maskedK i v1 v3 x0 x1 x2 (ix2 r k) = rowS i v1 v3 x0 x1 x2 r k := by
  unfold maskedK rowS Attn.masked
  rw [select_apply, maskK_apply, scoreK_apply]
  rfl

/-- Row `r`'s maximum. -/
private theorem maxK_apply (r : Fin 256) :
    maxK i v1 v3 x0 x1 x2 (ix1 r) = Attn.rowMax (rowS i v1 v3 x0 x1 x2 r) := by
  unfold maxK Attn.rowMax
  refine (Ideal.multiReduction_maximumf_single _ _ _ _ _ _).trans ?_
  show (Finset.univ : Finset (Fin 512)).fold max (Ideal.ofBits .f32 0xFF800000#32)
      (fun k : Fin 512 => maskedK i v1 v3 x0 x1 x2 (Shape.Reduces.lift reduces_S256x512_S256 (ix1 r) k)) = _
  refine Finset.fold_congr fun k _ => ?_
  rw [lift_row]
  exact maskedK_apply i v1 v3 x0 x1 x2 r k

/-- The shifted exponential at `(r, k)`. -/
private theorem expoK_apply (r : Fin 256) (k : Fin 512) :
    expoK i v1 v3 x0 x1 x2 (ix2 r k) = Attn.expo (rowS i v1 v3 x0 x1 x2 r) k := by
  unfold expoK Attn.expo
  show FloatOps.exp (FloatOps.subf (maskedK i v1 v3 x0 x1 x2 (ix2 r k))
      (broadcastTo S256x512 (shapeCast S256x1 (maxK i v1 v3 x0 x1 x2) shapeCasts_S256_S256x1) broadcasts_S256x1_S256x512 (ix2 r k))) = _
  rw [broadcastTo_a1_ab_apply, shapeCast_a_a1_apply, maxK_apply, maskedK_apply]
  rfl

/-- Row `r`'s sum of exponentials. -/
private theorem denomK_apply (r : Fin 256) :
    denomK i v1 v3 x0 x1 x2 (ix1 r) = Attn.denom (rowS i v1 v3 x0 x1 x2 r) := by
  unfold denomK Attn.denom
  refine (Ideal.multiReduction_add_single _ _ _ _ _ _).trans ?_
  show ∑ k : Fin 512, expoK i v1 v3 x0 x1 x2 (Shape.Reduces.lift reduces_S256x512_S256 (ix1 r) k) = _
  refine Finset.sum_congr rfl fun k _ => ?_
  rw [lift_row]
  exact expoK_apply i v1 v3 x0 x1 x2 r k

/-- The weight at `(r, k)`. -/
private theorem weightK_apply (r : Fin 256) (k : Fin 512) :
    weightK i v1 v3 x0 x1 x2 (ix2 r k)
      = Attn.weight (Attn.pad (BitVec.ofNat 32 ((i 1).val * 256 + r.val)) v1 v3) (rowS i v1 v3 x0 x1 x2 r) k := by
  unfold weightK Attn.weight
  show Scalar.select (maskK i v1 v3 (ix2 r k)) (Scalar.ofBits (F := Ideal) .f32 0x00000000#32)
      (FloatOps.divf (expoK i v1 v3 x0 x1 x2 (ix2 r k))
        (broadcastTo S256x512 (shapeCast S256x1 (denomK i v1 v3 x0 x1 x2) shapeCasts_S256_S256x1) broadcasts_S256x1_S256x512 (ix2 r k))) = _
  rw [broadcastTo_a1_ab_apply, shapeCast_a_a1_apply, denomK_apply, expoK_apply, maskK_apply]
  rfl

/-- The weights at row `r`, context position `k`. -/
theorem w_apply (r : Fin 256) (k : Fin 512) :
    k0_pay6 (F := Ideal) i v1 v3 x0 x1 x2 (ix2 r k)
      = Attn.attnW (BitVec.ofNat 32 ((i 1).val * 256 + r.val)) v1 v3
          (fun e d => x2 (ix2 d e)) (fun k d => x1 (ix3 (0 : Fin 1) k d)) (fun d => x0 (ix3 (0 : Fin 1) r d)) k := by
  rw [pay6_eq]
  exact weightK_apply i v1 v3 x0 x1 x2 r k

end Attn.Ker

end
-- ==== Proof.KerPay.lean ====
/-
  The idealized kernel's two store payloads, read at one row of the block, are the attention row of Spec.lean:
  the query row is row `r` of the query block, the context the context block, the two projections the
  transposed weight blocks read back in the reference's orientation, and the query position `256·(grid column) + r`.
-/
import proofs.«414341_j7404523618935_2_alg».proof.Proof.Gen.KernelIdeal.Skeleton
import proofs.«414341_j7404523618935_2_alg».proof.Proof.Spec
import proofs.«414341_j7404523618935_2_alg».proof.Proof.KerRow
import Idealize.ShloMosaic.Lib.ValueIdx
import Idealize.ShloMosaic.Lib.ValueLayout
import Idealize.ShloMosaic.Lib.Pipeline.Value
import Idealize.ShloMosaic.PureOps.Ideal.Laws

noncomputable section

namespace Attn.Ker

open Idealize.ShloMosaic Idealize.ShloMosaic.ValueIdx Cert.KernelIdeal Cert.KernelIdeal.Gen

variable (i : grid0.Coords) (v1 v3 : BitVec 32)
  (x0 : Vec Ideal S1x256x1024 .bf16) (x1 : Vec Ideal S1x512x1024 .bf16)
  (x2 : Vec Ideal S1024x1024 .bf16) (x3 : Vec Ideal S2048x1024 .bf16)

/-! ### A leading unit axis added or dropped -/

/-- A result block `[h, w]` stored as `[1, h, w]`, read at `(0, a, b)`, is the block at `(a, b)`. -/
theorem addUnit_apply {α : Type} {n1 n2 : Nat} (v : (⟨2, ![n1, n2]⟩ : Shape).Idx → α)
    (h : (⟨2, ![n1, n2]⟩ : Shape).ShapeCasts ⟨3, ![1, n1, n2]⟩) (a : Fin n1) (b : Fin n2) :
    shapeCast ⟨3, ![1, n1, n2]⟩ v h (ix3 (0 : Fin 1) a b) = v (ix2 a b) :=
  (shapeCast_addUnit_apply (n := 2) ![n1, n2] v h (ix3 (0 : Fin 1) a b)).trans
    (congrArg v (funext fun c => match c with | ⟨0, _⟩ => rfl | ⟨1, _⟩ => rfl))

/-- A block `[1, h, w]` viewed as `[h, w]`, read at `(a, b)`, is the block at `(0, a, b)`. -/
theorem dropUnit_apply {α : Type} {n1 n2 : Nat} (v : (⟨3, ![1, n1, n2]⟩ : Shape).Idx → α)
    (h : (⟨3, ![1, n1, n2]⟩ : Shape).ShapeCasts ⟨2, ![n1, n2]⟩) (a : Fin n1) (b : Fin n2) :
    shapeCast ⟨2, ![n1, n2]⟩ v h (ix2 a b) = v (ix3 (0 : Fin 1) a b) :=
  (shapeCast_dropUnit_apply (n := 2) ![n1, n2] v h (ix2 a b)).trans
    (congrArg v (funext fun c => match c with | ⟨0, _⟩ => rfl | ⟨1, _⟩ => rfl | ⟨2, _⟩ => rfl))

/-! ### The two products, read at an entry

The matrix unit's product of a `[m, c]` block and a `[c, n]` block into the zero block is, at entry `(r, d)`, the sum
over the contraction position `e` of the left block at `(r, e)` times the right block at `(e, d)`. The operand indices
are named by the dimension numbers' records; each axis is read off once. -/

theorem lhs_mix_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
theorem lhs_mix_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
theorem rhs_mix_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
theorem rhs_mix_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-- The weights block `[256, 512]` times the context block `[512, 1024]`, at `(r, d)`. -/
theorem mix_matmul_apply {φ₁ φ₂ : FTy} (lhs : FVec Ideal S256x512 φ₁) (rhs : FVec Ideal S512x1024 φ₂) (r : Fin 256) (d : Fin 1024) :
    matmul dot_S256x512_S512x1024_S256x1024_1_0_0_1_n_n none lhs rhs (constant (F := Ideal) S256x1024 .f32 0x00000000#32) (ix2 r d)
      = ∑ e : Fin 512, lhs (ix2 r e) * rhs (ix2 e d) := by
  simp only [matmul]
  rw [Ideal.matmul_constant_zero_apply, ← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  have el : dot_S256x512_S512x1024_S256x1024_1_0_0_1_n_n.lhsIdx (ix2 r d) ((contrEquiv1 dot_S256x512_S512x1024_S256x1024_1_0_0_1_n_n 512 rfl rfl).symm k) = ix2 r k := funext fun a => Fin.ext (by
    match a with
    | ⟨0, _⟩ => exact lhs_mix_0 _ _
    | ⟨1, _⟩ => exact (lhs_mix_1 _ _).trans hk)
  have er : dot_S256x512_S512x1024_S256x1024_1_0_0_1_n_n.rhsIdx (ix2 r d) ((contrEquiv1 dot_S256x512_S512x1024_S256x1024_1_0_0_1_n_n 512 rfl rfl).symm k) = ix2 k d := funext fun a => Fin.ext (by
    match a with
    | ⟨0, _⟩ => exact (rhs_mix_0 _ _).trans hk
    | ⟨1, _⟩ => exact rhs_mix_1 _ _)
  rw [el, er]

theorem lhs_out_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_out_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_out_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_out_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The joined block `[256, 2048]` times the output weights `[2048, 1024]`, at `(r, d)`. -/
theorem out_matmul_apply {φ₁ φ₂ : FTy} (lhs : FVec Ideal S256x2048 φ₁) (rhs : FVec Ideal S2048x1024 φ₂) (r : Fin 256) (d : Fin 1024) :
    matmul dot_S256x2048_S2048x1024_S256x1024_1_0_0_1_n_n none lhs rhs (constant (F := Ideal) S256x1024 .f32 0x00000000#32) (ix2 r d)
      = ∑ e : Fin 2048, lhs (ix2 r e) * rhs (ix2 e d) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 r d) ((contrEquiv1 dot_S256x2048_S2048x1024_S256x1024_1_0_0_1_n_n 2048 rfl rfl).symm k) = ix2 r k := funext fun a => Fin.ext (by
    match a with
    | ⟨0, _⟩ => exact lhs_out_0 _ _
    | ⟨1, _⟩ => exact (lhs_out_1 _ _).trans hk)
  have er : dot_S256x2048_S2048x1024_S256x1024_1_0_0_1_n_n.rhsIdx (ix2 r d) ((contrEquiv1 dot_S256x2048_S2048x1024_S256x1024_1_0_0_1_n_n 2048 rfl rfl).symm k) = ix2 k d := funext fun a => Fin.ext (by
    match a with
    | ⟨0, _⟩ => exact (rhs_out_0 _ _).trans hk
    | ⟨1, _⟩ => exact rhs_out_1 _ _)
  rw [el, er]

/-! ### Two blocks side by side -/

/-- Two `[256, 1024]` blocks joined along the columns, read at `(r, e)`: the first block at column `e` below 1024, the
    second at column `e - 1024` from there on. -/
theorem concat_apply {α : Type} (x₁ x₂ : S256x1024.Idx → α)
    (h : Shape.Concatenates [S256x1024, S256x1024] S256x2048 1) (r : Fin 256) (e : Fin 2048) :
    concatenate S256x2048 1 [⟨S256x1024, x₁⟩, ⟨S256x1024, x₂⟩] h (ix2 r e)
      = if h' : e.val < 1024 then x₁ (ix2 r ⟨e.val, h'⟩)
        else x₂ (ix2 r ⟨e.val - 1024, by have := e.isLt; omega⟩) := by
  by_cases h' : e.val < 1024
  · rw [dif_pos h']
    refine concatenate_pair_apply_left (1 : Fin S256x2048.rank) x₁ x₂ h (ix2 r e) rfl (ix2 r ⟨e.val, h'⟩) (fun b => ?_)
    match b with
    | ⟨0, _⟩ => rfl
    | ⟨1, _⟩ => rfl
  · rw [dif_neg h']
    refine concatenate_pair_apply_right (1 : Fin S256x2048.rank) x₁ x₂ h (ix2 r e) rfl rfl
      (ix2 r ⟨e.val - 1024, by have := e.isLt; omega⟩) (fun b hb => ?_) ?_
    · match b, hb with
      | ⟨0, _⟩, _ => rfl
      | ⟨1, _⟩, hb => exact absurd rfl hb
    · show (e.val - 1024) + 1024 = e.val
      omega

/-! ### The payloads -/

/-- The context block with its unit axis dropped, at `(k, d)`. -/
theorem ctx_apply (k : Fin 512) (d : Fin 1024) :
    k0_pay3 (F := Ideal) x1 (ix2 k d) = x1 (ix3 (0 : Fin 1) k d) := by
  unfold k0_pay3
  exact dropUnit_apply _ _ k d

/-- The output weights are read as they are. -/
theorem wo_eq : k0_pay4 (F := Ideal) x3 = x3 := by
  unfold k0_pay4
  exact shapeCast_self _ _

/-- The mixed context at row `r`, feature `d`: the row's weights against the context's column `d`. -/
theorem mix_apply (r : Fin 256) (d : Fin 1024) :
    k0_pay7 (F := Ideal) i v1 v3 x0 x1 x2 (ix2 r d)
      = Attn.mix (fun k d => x1 (ix3 (0 : Fin 1) k d))
          (Attn.attnW (BitVec.ofNat 32 ((i 1).val * 256 + r.val)) v1 v3
            (fun e d => x2 (ix2 d e)) (fun k d => x1 (ix3 (0 : Fin 1) k d)) (fun d => x0 (ix3 (0 : Fin 1) r d))) d := by
  unfold k0_pay7
  refine (mix_matmul_apply _ _ r d).trans ?_
  unfold Attn.mix
  refine Finset.sum_congr rfl fun k _ => ?_
  rw [truncf_apply, w_apply, ctx_apply]

/-- The joined block at row `r`, column `e`: the mixed context's row beside the projected query's. -/
theorem joined_apply (r : Fin 256) (e : Fin 2048) (hb : FTy.bits .bf16 < FTy.bits .f32)
    (h : Shape.Concatenates [S256x1024, S256x1024] S256x2048 1) :
    concatenate S256x2048 1 [⟨S256x1024, truncf .bf16 (k0_pay7 (F := Ideal) i v1 v3 x0 x1 x2) hb⟩,
        ⟨S256x1024, k0_pay5 (F := Ideal) x0 x2⟩] h (ix2 r e)
      = Attn.joined
          (Attn.mix (fun k d => x1 (ix3 (0 : Fin 1) k d))
            (Attn.attnW (BitVec.ofNat 32 ((i 1).val * 256 + r.val)) v1 v3
              (fun e d => x2 (ix2 d e)) (fun k d => x1 (ix3 (0 : Fin 1) k d)) (fun d => x0 (ix3 (0 : Fin 1) r d))))
          (Attn.proj (fun e d => x2 (ix2 d e)) (fun d => x0 (ix3 (0 : Fin 1) r d))) e := by
  rw [concat_apply]
  unfold Attn.joined
  by_cases h' : e.val < 1024
  · rw [dif_pos h', dif_pos h', truncf_apply, mix_apply]
  · rw [dif_neg h', dif_neg h', proj_apply]

/-- The weights payload at row `r`, column `k` of the block. -/
theorem weights_apply (r : Fin 256) (k : Fin 512) :
    k0_pay2 (F := Ideal) (k0_pay6 i v1 v3 x0 x1 x2) (ix3 (0 : Fin 1) r k)
      = Attn.attnW (BitVec.ofNat 32 ((i 1).val * 256 + r.val)) v1 v3
          (fun e d => x2 (ix2 d e)) (fun k d => x1 (ix3 (0 : Fin 1) k d)) (fun d => x0 (ix3 (0 : Fin 1) r d)) k := by
  unfold k0_pay2
  exact (addUnit_apply _ _ r k).trans (w_apply i v1 v3 x0 x1 x2 r k)

/-- The output payload at row `r`, feature `d` of the block. -/
theorem output_apply (r : Fin 256) (d : Fin 1024) :
    k0_pay1 (F := Ideal) (k0_pay4 x3) (k0_pay5 x0 x2) (k0_pay7 i v1 v3 x0 x1 x2) (ix3 (0 : Fin 1) r d)
      = Attn.attnOut (BitVec.ofNat 32 ((i 1).val * 256 + r.val)) v1 v3
          (fun e d => x2 (ix2 d e)) (fun d e => x3 (ix2 e d)) (fun k d => x1 (ix3 (0 : Fin 1) k d))
          (fun d => x0 (ix3 (0 : Fin 1) r d)) d := by
  unfold k0_pay1
  refine (addUnit_apply _ _ r d).trans ?_
  refine (congrArg Ideal.tanh (out_matmul_apply _ _ r d)).trans ?_
  unfold Attn.attnOut Attn.outp
  refine congrArg Ideal.tanh (Finset.sum_congr rfl fun e _ => ?_)
  rw [joined_apply, wo_eq]

end Attn.Ker

end
-- ==== Proof.KerVal.lean ====
/-
  The idealized kernel's run read as values: what each grid point leaves in the two output blocks is the
  attention row of Spec.lean at the rows of that block, so the two result arrays after the run are the
  attention of the argument arrays, index by index.
-/
import proofs.«414341_j7404523618935_2_alg».proof.Proof.Gen.KernelIdeal.Frame
import proofs.«414341_j7404523618935_2_alg».proof.Proof.KerPay
import Idealize.ShloMosaic.Lib.Pipeline.Value
import Idealize.ShloMosaic.Lib.StableHlo.Run
import Idealize.ShloMosaic.Lib.Tactic

set_option maxRecDepth 16384

noncomputable section

namespace Cert.KernelIdeal.RowValue

open Idealize.ShloMosaic Idealize.ShloMosaic.TcCoe Idealize.SL.Sem Idealize.ShloMosaic.Tactic
open Idealize.ShloMosaic.ValueIdx
open Idealize.ShloMosaic.Pipeline (Dat)
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## What one grid point leaves in the output blocks -/

/-- The word the body at point `i` loads from a length table held at `f`: the table's entry at the point's batch. -/
def tword (c : Dev nD) (i : grid0.Coords) (M : Memref sig .tc .smem S32 .i32) (f : TbBuf0 (F := F) c M) : Elt F .i32 :=
  View.readAt (Elt F) M.view (Rect.unit (s := S32) (k0_off1 i) S1.size (k0_off1_inb i)).toLoadRect f
    (Shape.Idx.first (numel1_S1.symm ▸ Nat.one_pos))

/-- The weights block a point leaves: the body's one covering store, the masked softmax of the point's blocks. -/
theorem out5_eq (c : Dev nD) (i : grid0.Coords) (arg4 : Memref sig .tc .vmem S1x256x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1x256x1024 .f32) (harg8 : arg8.IsWhole) (arg9 : Memref sig .tc .vmem S1x256x512 .f32) (harg9 : arg9.IsWhole)
    (x0 : Vec F S1x256x1024 .bf16) (x1 : Vec F S1x512x1024 .bf16) (x2 : Vec F S1024x1024 .bf16) (x3 : Vec F S2048x1024 .bf16) (xt0 : TbBuf0 (F := F) c tbM0_0) (xt1 : TbBuf0 (F := F) c tbM0_1) :
    out0_A_5 c i arg4 harg4 arg5 harg5 arg6 harg6 arg7 harg7 arg8 harg8 arg9 harg9 x0 x1 x2 x3 xt0 xt1 = k0_pay2 (k0_pay6 i (tword c i tbM0_0 xt0) (tword c i tbM0_1 xt1) x0 x1 x2) := by
  unfold out0_A_5
  rw [View.read_writes_eq_canon _ _ _ (cover0_A_5 c i arg4 harg4 arg5 harg5 arg6 harg6 arg7 harg7 arg8 harg8 arg9 harg9 x0 x1 x2 x3 xt0 xt1)]
  unfold kernelRun0_A
  dsimp only
  sl_unfold_words
  rw [View.canon_unit_zero hz3]
  simp only [View.readAt_eq_ld, harg4.read_unread, harg5.read_unread, harg6.read_unread,
    View.ld_unit_zero (S := S1x256x1024) hz3, View.ld_unit_zero (S := S1x512x1024) hz3, View.ld_unit_zero (S := S1024x1024) hz2]
  rfl

/-- The output block a point leaves: the body's other covering store, the projected and squashed mix. -/
theorem out4_eq (c : Dev nD) (i : grid0.Coords) (arg4 : Memref sig .tc .vmem S1x256x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1x256x1024 .f32) (harg8 : arg8.IsWhole) (arg9 : Memref sig .tc .vmem S1x256x512 .f32) (harg9 : arg9.IsWhole)
    (x0 : Vec F S1x256x1024 .bf16) (x1 : Vec F S1x512x1024 .bf16) (x2 : Vec F S1024x1024 .bf16) (x3 : Vec F S2048x1024 .bf16) (xt0 : TbBuf0 (F := F) c tbM0_0) (xt1 : TbBuf0 (F := F) c tbM0_1) :
    out0_A_4 c i arg4 harg4 arg5 harg5 arg6 harg6 arg7 harg7 arg8 harg8 arg9 harg9 x0 x1 x2 x3 xt0 xt1
      = k0_pay1 (k0_pay4 x3) (k0_pay5 x0 x2) (k0_pay7 i (tword c i tbM0_0 xt0) (tword c i tbM0_1 xt1) x0 x1 x2) := by
  unfold out0_A_4
  rw [View.read_writes_eq_canon _ _ _ (cover0_A_4 c i arg4 harg4 arg5 harg5 arg6 harg6 arg7 harg7 arg8 harg8 arg9 harg9 x0 x1 x2 x3 xt0 xt1)]
  unfold kernelRun0_A
  dsimp only
  sl_unfold_words
  rw [View.canon_unit_zero hz3]
  simp only [View.readAt_eq_ld, harg4.read_unread, harg5.read_unread, harg6.read_unread, harg7.read_unread,
    View.ld_unit_zero (S := S1x256x1024) hz3, View.ld_unit_zero (S := S1x512x1024) hz3, View.ld_unit_zero (S := S1024x1024) hz2,
    View.ld_unit_zero (S := S2048x1024) hz2]
  rfl

/-! ## The blocks a point reads, and the table words, in terms of the argument arrays -/

section AtIdeal

variable (m : (ℓ : Loc nD τ sig) → Buf (Elt Ideal) ℓ) (ρ : Dev nD → PrngReg)

/-- No index map reads a length table, so the pipeline's side condition on the tables is empty. -/
theorem ok : Ok m := trivial

/-- The blocks of the four staged operands at a point, at their literal types. -/
abbrev qblk (c : Dev nD) (t : Fin (cfgM m (ok m)).N) : Vec Ideal S1x256x1024 .bf16 := iblk m (ok m) c 0 t
abbrev cblk (c : Dev nD) (t : Fin (cfgM m (ok m)).N) : Vec Ideal S1x512x1024 .bf16 := iblk m (ok m) c 1 t
abbrev wiblk (c : Dev nD) (t : Fin (cfgM m (ok m)).N) : Vec Ideal S1024x1024 .bf16 := iblk m (ok m) c 2 t
abbrev woblk (c : Dev nD) (t : Fin (cfgM m (ok m)).N) : Vec Ideal S2048x1024 .bf16 := iblk m (ok m) c 3 t

/-- The staged query array is the query argument (its bf16 copy, the same extended reals). -/
theorem V_v0 (c : Dev nD) : (V m c main_v0 : S32x512x1024.Idx → EReal) = m ((c : Thread nD τ).loc main_arg0) := by
  dsimp only [V, hostOps0]; after_results; rfl

/-- A grid coordinate read back from its 32-bit word. -/
theorem coord0 (i : grid0.Coords) : (BitVec.ofNat 32 (i 0).val).toNat = (i 0).val := by
  have h : (i 0).val < 32 := (i 0).isLt
  rw [BitVec.toNat_ofNat]; exact Nat.mod_eq_of_lt (by omega)
theorem coord1 (i : grid0.Coords) : (BitVec.ofNat 32 (i 1).val).toNat = (i 1).val := by
  have h : (i 1).val < 2 := (i 1).isLt
  rw [BitVec.toNat_ofNat]; exact Nat.mod_eq_of_lt (by omega)

theorem qblk_apply (c : Dev nD) (t : Fin (cfgM m (ok m)).N) (r : Fin 256) (d : Fin 1024) (b : Fin 32) (q : Fin 512)
    (hb : b.val = (grid0.coords t 0).val) (hq : q.val = (grid0.coords t 1).val * 256 + r.val) :
    qblk m c t (ix3 (0 : Fin 1) r d) = m ((c : Thread nD τ).loc main_arg0) (ix3 b q d) := by
  show V m c main_v0 ((((cfgM m (ok m)).win 0).blk t).view.emb (ix3 (0 : Fin 1) r d)) = _
  rw [V_v0]
  congr 1
  funext a
  apply Fin.ext
  match a with
  | ⟨0, _⟩ => show (BitVec.ofNat 32 (grid0.coords t 0).val).toNat * 1 + 1 * 0 = b.val; rw [coord0]; omega
  | ⟨1, _⟩ => show (BitVec.ofNat 32 (grid0.coords t 1).val).toNat * 256 + 1 * r.val = q.val; rw [coord1]; omega
  | ⟨2, _⟩ => show (0#32 : BitVec 32).toNat * 1024 + 1 * d.val = d.val; simp

/-- The staged context array is the context argument. -/
theorem V_v1 (c : Dev nD) : (V m c main_v1 : S32x512x1024.Idx → EReal) = m ((c : Thread nD τ).loc main_arg1) := by
  dsimp only [V, hostOps0]; after_results; rfl

/-- The staged input projection is the transposed argument. -/
theorem V_v3 (c : Dev nD) : (V m c main_v3 : S1024x1024.Idx → EReal)
    = transpose S1024x1024 [1, 0] (m ((c : Thread nD τ).loc main_arg2)) transposes_S1024x1024_S1024x1024_1_0 := by
  dsimp only [V, hostOps0]; after_results; rfl

/-- The staged output projection is the transposed argument. -/
theorem V_v5 (c : Dev nD) : (V m c main_v5 : S2048x1024.Idx → EReal)
    = transpose S2048x1024 [1, 0] (m ((c : Thread nD τ).loc main_arg3)) transposes_S1024x2048_S2048x1024_1_0 := by
  dsimp only [V, hostOps0]; after_results; rfl

theorem cblk_apply (c : Dev nD) (t : Fin (cfgM m (ok m)).N) (k : Fin 512) (d : Fin 1024) (b : Fin 32)
    (hb : b.val = (grid0.coords t 0).val) :
    cblk m c t (ix3 (0 : Fin 1) k d) = m ((c : Thread nD τ).loc main_arg1) (ix3 b k d) := by
  show V m c main_v1 ((((cfgM m (ok m)).win 1).blk t).view.emb (ix3 (0 : Fin 1) k d)) = _
  rw [V_v1]
  congr 1
  funext a
  apply Fin.ext
  match a with
  | ⟨0, _⟩ => show (BitVec.ofNat 32 (grid0.coords t 0).val).toNat * 1 + 1 * 0 = b.val; rw [coord0]; omega
  | ⟨1, _⟩ => show (0#32 : BitVec 32).toNat * 512 + 1 * k.val = k.val; simp
  | ⟨2, _⟩ => show (0#32 : BitVec 32).toNat * 1024 + 1 * d.val = d.val; simp

theorem wiblk_apply (c : Dev nD) (t : Fin (cfgM m (ok m)).N) (d e : Fin 1024) :
    wiblk m c t (ix2 d e) = m ((c : Thread nD τ).loc main_arg2) (ix2 e d) := by
  show V m c main_v3 ((((cfgM m (ok m)).win 2).blk t).view.emb (ix2 d e)) = _
  rw [V_v3]
  refine transpose_apply _ _ _ _ _ fun a => ?_
  match a with
  | ⟨0, _⟩ => show d.val = (0#32 : BitVec 32).toNat * 1024 + 1 * d.val; simp
  | ⟨1, _⟩ => show e.val = (0#32 : BitVec 32).toNat * 1024 + 1 * e.val; simp

theorem woblk_apply (c : Dev nD) (t : Fin (cfgM m (ok m)).N) (e : Fin 2048) (d : Fin 1024) :
    woblk m c t (ix2 e d) = m ((c : Thread nD τ).loc main_arg3) (ix2 d e) := by
  show V m c main_v5 ((((cfgM m (ok m)).win 3).blk t).view.emb (ix2 e d)) = _
  rw [V_v5]
  refine transpose_apply _ _ _ _ _ fun a => ?_
  match a with
  | ⟨0, _⟩ => show e.val = (0#32 : BitVec 32).toNat * 2048 + 1 * e.val; simp
  | ⟨1, _⟩ => show d.val = (0#32 : BitVec 32).toNat * 1024 + 1 * d.val; simp

/-- The query-length word a point loads is the length of its batch. -/
theorem tword0_eq (c : Dev nD) (i : grid0.Coords) (b : Fin 32) (hb : b.val = (i 0).val) :
    tword c i tbM0_0 (tbl m 0) = m ((c : Thread nD τ).loc main_arg4) (ix1 b) := by
  obtain rfl : c = 0 := Subsingleton.elim _ _
  show V m (0 : Dev nD) main_arg4 _ = _
  rw [V_main_arg4]
  congr 1
  funext a
  apply Fin.ext
  match a with
  | ⟨0, _⟩ => show k0_off1 i (0 : Fin 1) + 1 * 0 = b.val; rw [k0_off1_eq i]; show (i 0).val + 1 * 0 = b.val; omega

/-- The key-length word a point loads is the length of its batch. -/
theorem tword1_eq (c : Dev nD) (i : grid0.Coords) (b : Fin 32) (hb : b.val = (i 0).val) :
    tword c i tbM0_1 (tbl m 1) = m ((c : Thread nD τ).loc main_arg5) (ix1 b) := by
  obtain rfl : c = 0 := Subsingleton.elim _ _
  show V m (0 : Dev nD) main_arg5 _ = _
  rw [V_main_arg5]
  congr 1
  funext a
  apply Fin.ext
  match a with
  | ⟨0, _⟩ => show k0_off1 i (0 : Fin 1) + 1 * 0 = b.val; rw [k0_off1_eq i]; show (i 0).val + 1 * 0 = b.val; omega

/-! ## The result arrays as functions of the arguments -/

/-- The attention output of query row `(b, q)` of the arguments. -/
def outRow (c : Dev nD) (b : Fin 32) (q : Fin 512) : Fin 1024 → EReal :=
  Attn.attnOut (BitVec.ofNat 32 q.val) (m ((c : Thread nD τ).loc main_arg4) (ix1 b)) (m ((c : Thread nD τ).loc main_arg5) (ix1 b))
    (fun e d => m ((c : Thread nD τ).loc main_arg2) (ix2 e d)) (fun d e => m ((c : Thread nD τ).loc main_arg3) (ix2 d e))
    (fun k d => m ((c : Thread nD τ).loc main_arg1) (ix3 b k d)) (fun d => m ((c : Thread nD τ).loc main_arg0) (ix3 b q d))

/-- The attention weights of query row `(b, q)` of the arguments. -/
def wRow (c : Dev nD) (b : Fin 32) (q : Fin 512) : Fin 512 → EReal :=
  Attn.attnW (BitVec.ofNat 32 q.val) (m ((c : Thread nD τ).loc main_arg4) (ix1 b)) (m ((c : Thread nD τ).loc main_arg5) (ix1 b))
    (fun e d => m ((c : Thread nD τ).loc main_arg2) (ix2 e d)) (fun k d => m ((c : Thread nD τ).loc main_arg1) (ix3 b k d)) (fun d => m ((c : Thread nD τ).loc main_arg0) (ix3 b q d))

/-- The first result array: row `(b, q)` holds the attention output of that query row. -/
def outArr (c : Dev nD) : S32x512x1024.Idx → EReal := fun j => outRow m c (j 0) (j 1) (j 2)
/-- The second result array: row `(b, q)` holds the attention weights of that query row. -/
def wArr (c : Dev nD) : S32x512x512.Idx → EReal := fun j => wRow m c (j 0) (j 1) (j 2)

end AtIdeal

/-! ## The payloads at an index of the block, at the literal index types -/

theorem out_point (i : grid0.Coords) (v1 v3 : BitVec 32) (x0 : Vec Ideal S1x256x1024 .bf16) (x1 : Vec Ideal S1x512x1024 .bf16)
    (x2 : Vec Ideal S1024x1024 .bf16) (x3 : Vec Ideal S2048x1024 .bf16) (y : S1x256x1024.Idx) :
    k0_pay1 (F := Ideal) (k0_pay4 x3) (k0_pay5 x0 x2) (k0_pay7 i v1 v3 x0 x1 x2) y
      = Attn.attnOut (BitVec.ofNat 32 ((i 1).val * 256 + (y 1).val)) v1 v3
          (fun e d => x2 (ix2 d e)) (fun d e => x3 (ix2 e d)) (fun k d => x1 (ix3 (0 : Fin 1) k d))
          (fun d => x0 (ix3 (0 : Fin 1) (y 1) d)) (y 2) := by
  obtain ⟨z, r, d, rfl⟩ : ∃ (z : Fin 1) (r : Fin 256) (d : Fin 1024), y = ix3 z r d := ⟨y 0, y 1, y 2, eq_ix3 y⟩
  obtain rfl : z = 0 := Subsingleton.elim _ _
  exact Attn.Ker.output_apply i v1 v3 x0 x1 x2 x3 r d

theorem w_point (i : grid0.Coords) (v1 v3 : BitVec 32) (x0 : Vec Ideal S1x256x1024 .bf16) (x1 : Vec Ideal S1x512x1024 .bf16)
    (x2 : Vec Ideal S1024x1024 .bf16) (y : S1x256x512.Idx) :
    k0_pay2 (F := Ideal) (k0_pay6 i v1 v3 x0 x1 x2) y
      = Attn.attnW (BitVec.ofNat 32 ((i 1).val * 256 + (y 1).val)) v1 v3
          (fun e d => x2 (ix2 d e)) (fun k d => x1 (ix3 (0 : Fin 1) k d))
          (fun d => x0 (ix3 (0 : Fin 1) (y 1) d)) (y 2) := by
  obtain ⟨z, r, k, rfl⟩ : ∃ (z : Fin 1) (r : Fin 256) (k : Fin 512), y = ix3 z r k := ⟨y 0, y 1, y 2, eq_ix3 y⟩
  obtain rfl : z = 0 := Subsingleton.elim _ _
  exact Attn.Ker.weights_apply i v1 v3 x0 x1 x2 r k

/-! ## From the blocks to the arrays -/

theorem attnOut_congr {qv qv' ql ql' cl cl' : BitVec 32} {Wi Wi' : Fin 1024 → Fin 1024 → EReal}
    {Wo Wo' : Fin 1024 → Fin 2048 → EReal} {C C' : Fin 512 → Fin 1024 → EReal} {x x' : Fin 1024 → EReal} {d d' : Fin 1024}
    (h1 : qv = qv') (h2 : ql = ql') (h3 : cl = cl') (h4 : Wi = Wi') (h5 : Wo = Wo') (h6 : C = C') (h7 : x = x') (h8 : d = d') :
    Attn.attnOut qv ql cl Wi Wo C x d = Attn.attnOut qv' ql' cl' Wi' Wo' C' x' d' := by
  subst h1 h2 h3 h4 h5 h6 h7 h8; rfl

theorem attnW_congr {qv qv' ql ql' cl cl' : BitVec 32} {Wi Wi' : Fin 1024 → Fin 1024 → EReal}
    {C C' : Fin 512 → Fin 1024 → EReal} {x x' : Fin 1024 → EReal} {k k' : Fin 512}
    (h1 : qv = qv') (h2 : ql = ql') (h3 : cl = cl') (h4 : Wi = Wi') (h6 : C = C') (h7 : x = x') (h8 : k = k') :
    Attn.attnW qv ql cl Wi C x k = Attn.attnW qv' ql' cl' Wi' C' x' k' := by
  subst h1 h2 h3 h4 h6 h7 h8; rfl

section Run

variable (m : (ℓ : Loc nD τ sig) → Buf (Elt Ideal) ℓ) (ρ : Dev nD → PrngReg)

/-- A block index `y` of point `t` and the array index `j` it sits at (batch and tile from the point, row and feature
    from the block): the payload at `y` is the result array at `j`. -/
theorem point4_eq (c : Dev nD) (t : Fin (cfgM m (ok m)).N) (y : S1x256x1024.Idx) (j : S32x512x1024.Idx)
    (hj0 : (j 0).val = (grid0.coords t 0).val) (hj1 : (j 1).val = (grid0.coords t 1).val * 256 + (y 1).val)
    (hj2 : (j 2).val = (y 2).val) :
    k0_pay1 (F := Ideal) (k0_pay4 (woblk m c t)) (k0_pay5 (qblk m c t) (wiblk m c t)) (k0_pay7 (grid0.coords t) (tword c (grid0.coords t) tbM0_0 (tbl m 0)) (tword c (grid0.coords t) tbM0_1 (tbl m 1)) (qblk m c t) (cblk m c t) (wiblk m c t)) y = outArr m c j := by
  refine (out_point (grid0.coords t) (tword c (grid0.coords t) tbM0_0 (tbl m 0)) (tword c (grid0.coords t) tbM0_1 (tbl m 1)) (qblk m c t) (cblk m c t) (wiblk m c t) (woblk m c t) y).trans ?_
  unfold outArr outRow
  exact attnOut_congr (by rw [hj1]) (tword0_eq m c (grid0.coords t) (j 0) hj0) (tword1_eq m c (grid0.coords t) (j 0) hj0)
    (funext fun e => funext fun d => wiblk_apply m c t d e)
    (funext fun d => funext fun e => woblk_apply m c t e d)
    (funext fun k => funext fun d => cblk_apply m c t k d (j 0) hj0)
    (funext fun d => qblk_apply m c t (y 1) d (j 0) (j 1) hj0 hj1)
    (Fin.ext hj2.symm)

/-- The same at the array index the block's own embedding gives. -/
theorem emb4_eq (c : Dev nD) (t : Fin (cfgM m (ok m)).N) (y : S1x256x1024.Idx) :
    k0_pay1 (F := Ideal) (k0_pay4 (woblk m c t)) (k0_pay5 (qblk m c t) (wiblk m c t)) (k0_pay7 (grid0.coords t) (tword c (grid0.coords t) tbM0_0 (tbl m 0)) (tword c (grid0.coords t) tbM0_1 (tbl m 1)) (qblk m c t) (cblk m c t) (wiblk m c t)) y = outArr m c ((((cfgM m (ok m)).win 4).blk t).view.emb y) := by
  refine point4_eq m c t y _ ?_ ?_ ?_
  · show (BitVec.ofNat 32 (grid0.coords t 0).val).toNat * 1 + 1 * (y 0).val = _
    have : (y 0).val < 1 := (y 0).isLt
    rw [coord0]; omega
  · show (BitVec.ofNat 32 (grid0.coords t 1).val).toNat * 256 + 1 * (y 1).val = _
    rw [coord1]; omega
  · show (0#32 : BitVec 32).toNat * 1024 + 1 * (y 2).val = _
    simp

set_option maxHeartbeats 1000000 in
/-- WHAT A POINT WRITES BACK to the first result: its block of `outArr` — the block's row `r` is query position
    `256·(grid column) + r` of the point's batch, and the blocks it read are the rows of the arguments it needs. -/
theorem flushed4_eq (c : Dev nD) (t : Fin (cfgM m (ok m)).N) :
    (dats m (ok m) 0 c).flushed 4 t = (((cfgM m (ok m)).win 4).blk t).view.read (Elt Ideal) (outArr m c) := by
  show ((cfgM m (ok m)).win 4).cut (grid0.coords t) ((dats m (ok m) 0 c).after 4 t) = _
  rw [after0_4]
  have hout : (outsAt0 m (ok m) c t).1 = k0_pay1 (F := Ideal) (k0_pay4 (woblk m c t)) (k0_pay5 (qblk m c t) (wiblk m c t)) (k0_pay7 (grid0.coords t) (tword c (grid0.coords t) tbM0_0 (tbl m 0)) (tword c (grid0.coords t) tbM0_1 (tbl m 1)) (qblk m c t) (cblk m c t) (wiblk m c t)) := by
    unfold outsAt0
    dsimp only
    exact out4_eq c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (iblk m (ok m) c 0 t) (iblk m (ok m) c 1 t) (iblk m (ok m) c 2 t) (iblk m (ok m) c 3 t) (tbl m 0) (tbl m 1)
  funext y
  exact (congrFun hout y).trans (emb4_eq m c t y)

/-- A block index `y` of point `t` and the array index `j` it sits at (batch and tile from the point, row and feature
    from the block): the payload at `y` is the result array at `j`. -/
theorem point5_eq (c : Dev nD) (t : Fin (cfgM m (ok m)).N) (y : S1x256x512.Idx) (j : S32x512x512.Idx)
    (hj0 : (j 0).val = (grid0.coords t 0).val) (hj1 : (j 1).val = (grid0.coords t 1).val * 256 + (y 1).val)
    (hj2 : (j 2).val = (y 2).val) :
    k0_pay2 (F := Ideal) (k0_pay6 (grid0.coords t) (tword c (grid0.coords t) tbM0_0 (tbl m 0)) (tword c (grid0.coords t) tbM0_1 (tbl m 1)) (qblk m c t) (cblk m c t) (wiblk m c t)) y = wArr m c j := by
  refine (w_point (grid0.coords t) (tword c (grid0.coords t) tbM0_0 (tbl m 0)) (tword c (grid0.coords t) tbM0_1 (tbl m 1)) (qblk m c t) (cblk m c t) (wiblk m c t) y).trans ?_
  unfold wArr wRow
  exact attnW_congr (by rw [hj1]) (tword0_eq m c (grid0.coords t) (j 0) hj0) (tword1_eq m c (grid0.coords t) (j 0) hj0)
    (funext fun e => funext fun d => wiblk_apply m c t d e)
    (funext fun k => funext fun d => cblk_apply m c t k d (j 0) hj0)
    (funext fun d => qblk_apply m c t (y 1) d (j 0) (j 1) hj0 hj1)
    (Fin.ext hj2.symm)

/-- The same at the array index the block's own embedding gives. -/
theorem emb5_eq (c : Dev nD) (t : Fin (cfgM m (ok m)).N) (y : S1x256x512.Idx) :
    k0_pay2 (F := Ideal) (k0_pay6 (grid0.coords t) (tword c (grid0.coords t) tbM0_0 (tbl m 0)) (tword c (grid0.coords t) tbM0_1 (tbl m 1)) (qblk m c t) (cblk m c t) (wiblk m c t)) y = wArr m c ((((cfgM m (ok m)).win 5).blk t).view.emb y) := by
  refine point5_eq m c t y _ ?_ ?_ ?_
  · show (BitVec.ofNat 32 (grid0.coords t 0).val).toNat * 1 + 1 * (y 0).val = _
    have : (y 0).val < 1 := (y 0).isLt
    rw [coord0]; omega
  · show (BitVec.ofNat 32 (grid0.coords t 1).val).toNat * 256 + 1 * (y 1).val = _
    rw [coord1]; omega
  · show (0#32 : BitVec 32).toNat * 512 + 1 * (y 2).val = _
    simp

set_option maxHeartbeats 1000000 in
/-- WHAT A POINT WRITES BACK to the second result: its block of `wArr`. -/
theorem flushed5_eq (c : Dev nD) (t : Fin (cfgM m (ok m)).N) :
    (dats m (ok m) 0 c).flushed 5 t = (((cfgM m (ok m)).win 5).blk t).view.read (Elt Ideal) (wArr m c) := by
  show ((cfgM m (ok m)).win 5).cut (grid0.coords t) ((dats m (ok m) 0 c).after 5 t) = _
  rw [after0_5]
  have hout : (outsAt0 m (ok m) c t).2 = k0_pay2 (F := Ideal) (k0_pay6 (grid0.coords t) (tword c (grid0.coords t) tbM0_0 (tbl m 0)) (tword c (grid0.coords t) tbM0_1 (tbl m 1)) (qblk m c t) (cblk m c t) (wiblk m c t)) := by
    unfold outsAt0
    dsimp only
    exact out5_eq c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (iblk m (ok m) c 0 t) (iblk m (ok m) c 1 t) (iblk m (ok m) c 2 t) (iblk m (ok m) c 3 t) (tbl m 0) (tbl m 1)
  funext y
  exact (congrFun hout y).trans (emb5_eq m c t y)

/-- Every (batch, query tile) is some grid point's, for both results (their index maps are the same). -/
theorem onto4 : ∀ (q0 : Fin 32) (q1 : Fin 2), ∃ t : Fin grid0.N, cc0_transform_4 (grid0.coords t) = ![q0.val, q1.val, 0] := by
  decide +kernel
theorem onto5 : ∀ (q0 : Fin 32) (q1 : Fin 2), ∃ t : Fin grid0.N, cc0_transform_5 (grid0.coords t) = ![q0.val, q1.val, 0] := by
  decide +kernel

/-- The blocks tile the first result: index `(b, q, d)` is row `q mod 256`, feature `d` of the block of the point at
    batch `b`, tile `q / 256`. -/
theorem cover4 (i : S32x512x1024.Idx) :
    ∃ t : Fin (cfgM m (ok m)).N, ((cfgM m (ok m)).win 4).flush t = true ∧ i ∈ (((cfgM m (ok m)).win 4).blk t).view.set := by
  have h0 : (i 0).val < 32 := (i 0).isLt
  have h1 : (i 1).val < 512 := (i 1).isLt
  have h2 : (i 2).val < 1024 := (i 2).isLt
  obtain ⟨t, ht⟩ := onto4 ⟨(i 0).val, h0⟩ ⟨(i 1).val / 256, by omega⟩
  have q0 : cc0_transform_4 (grid0.coords t) 0 = (i 0).val := congrFun ht 0
  have q1 : cc0_transform_4 (grid0.coords t) 1 = (i 1).val / 256 := congrFun ht 1
  have q2 : cc0_transform_4 (grid0.coords t) 2 = 0 := congrFun ht 2
  refine ⟨t, flush0_4 _ t, ?_⟩
  have hy : (((cfgM m (ok m)).win 4).blk t).view.emb (ix3 (0 : Fin 1) (⟨(i 1).val % 256, Nat.mod_lt _ (by decide)⟩ : Fin 256) (⟨(i 2).val, h2⟩ : Fin 1024)) = i := by
    funext a
    apply Fin.ext
    match a with
    | ⟨0, _⟩ => show cc0_transform_4 (grid0.coords t) 0 * 1 + 1 * 0 = (i 0).val; omega
    | ⟨1, _⟩ => show cc0_transform_4 (grid0.coords t) 1 * 256 + 1 * ((i 1).val % 256) = (i 1).val; omega
    | ⟨2, _⟩ => show cc0_transform_4 (grid0.coords t) 2 * 1024 + 1 * (i 2).val = (i 2).val; omega
  have hmem := (((cfgM m (ok m)).win 4).blk t).view.emb_mem_set (ix3 (0 : Fin 1) (⟨(i 1).val % 256, Nat.mod_lt _ (by decide)⟩ : Fin 256) (⟨(i 2).val, h2⟩ : Fin 1024))
  rw [hy] at hmem
  exact hmem

/-- The blocks tile the second result likewise. -/
theorem cover5 (i : S32x512x512.Idx) :
    ∃ t : Fin (cfgM m (ok m)).N, ((cfgM m (ok m)).win 5).flush t = true ∧ i ∈ (((cfgM m (ok m)).win 5).blk t).view.set := by
  have h0 : (i 0).val < 32 := (i 0).isLt
  have h1 : (i 1).val < 512 := (i 1).isLt
  have h2 : (i 2).val < 512 := (i 2).isLt
  obtain ⟨t, ht⟩ := onto5 ⟨(i 0).val, h0⟩ ⟨(i 1).val / 256, by omega⟩
  have q0 : cc0_transform_5 (grid0.coords t) 0 = (i 0).val := congrFun ht 0
  have q1 : cc0_transform_5 (grid0.coords t) 1 = (i 1).val / 256 := congrFun ht 1
  have q2 : cc0_transform_5 (grid0.coords t) 2 = 0 := congrFun ht 2
  refine ⟨t, flush0_5 _ t, ?_⟩
  have hy : (((cfgM m (ok m)).win 5).blk t).view.emb (ix3 (0 : Fin 1) (⟨(i 1).val % 256, Nat.mod_lt _ (by decide)⟩ : Fin 256) (⟨(i 2).val, h2⟩ : Fin 512)) = i := by
    funext a
    apply Fin.ext
    match a with
    | ⟨0, _⟩ => show cc0_transform_5 (grid0.coords t) 0 * 1 + 1 * 0 = (i 0).val; omega
    | ⟨1, _⟩ => show cc0_transform_5 (grid0.coords t) 1 * 256 + 1 * ((i 1).val % 256) = (i 1).val; omega
    | ⟨2, _⟩ => show cc0_transform_5 (grid0.coords t) 2 * 512 + 1 * (i 2).val = (i 2).val; omega
  have hmem := (((cfgM m (ok m)).win 5).blk t).view.emb_mem_set (ix3 (0 : Fin 1) (⟨(i 1).val % 256, Nat.mod_lt _ (by decide)⟩ : Fin 256) (⟨(i 2).val, h2⟩ : Fin 512))
  rw [hy] at hmem
  exact hmem

/-- So the first result array ends holding `outArr`, -/
theorem final4 (c : Dev nD) : (dats m (ok m) 0 c).arrAt 4 (cfgM m (ok m)).N = outArr m c :=
  (dats m (ok m) 0 c).arrAt_eq_of_cover 4 (outArr m c) (fun t _ => flushed4_eq m c t) (cover4 m)
/-- and the second `wArr`. -/
theorem final5 (c : Dev nD) : (dats m (ok m) 0 c).arrAt 5 (cfgM m (ok m)).N = wArr m c :=
  (dats m (ok m) 0 c).arrAt_eq_of_cover 5 (wArr m c) (fun t _ => flushed5_eq m c t) (cover5 m)

/-- The run, read: both result arrays at the attention of the arguments, the arguments unchanged. -/
theorem run : θ_run defs (onTc (τ := τ) (main (F := Ideal))) ⟨m, fun _ => 0, ρ⟩ fun r => ∀ c : Dev nD,
      r.2.mem ((c.tc : Thread nD τ).loc main_v6_0) = outArr m c
      ∧ r.2.mem ((c.tc : Thread nD τ).loc main_v6_1) = wArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 4).trans (final4 m c), ((h c).1 5).trans (final5 m c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ (ok m))

end Run

end Cert.KernelIdeal.RowValue

end
-- ==== Proof.RefRow.lean ====
/-
  The idealized reference up to the softmax, read at one query row: its projected query and its masked,
  normalised weights are the rows `proj` and `attnW` of Spec.lean of that row of the arguments.
-/
import proofs.«414341_j7404523618935_2_alg».proof.Proof.RefRead
import proofs.«414341_j7404523618935_2_alg».proof.Proof.Spec
import Idealize.ShloMosaic.Lib.ValueIdx
import Idealize.ShloMosaic.Lib.Pipeline.Value
import Idealize.ShloMosaic.PureOps.Ideal.Laws

noncomputable section

namespace Attn.Ref

open Idealize.ShloMosaic Idealize.ShloMosaic.ValueIdx Cert.ReferenceIdeal Cert.ReferenceIdeal.Read

variable (Q C : (⟨S32x512x1024, .f32⟩ : BufTy).Contents (Elt Ideal)) (Wi : (⟨S1024x1024, .f32⟩ : BufTy).Contents (Elt Ideal))
  (ql cl : (⟨S32, .i32⟩ : BufTy).Contents (Elt Ideal))

/-! ## The operand indices of the two contractions, by coordinates -/

/-- The first contraction reads its left operand at (b, q, d) … -/
theorem lidx12 (b : Fin 32) (q : Fin 512) (e d : Fin 1024) : lidx_main_v12 (ix3 b q e) d = ix3 b q d :=
  funext fun a => Fin.ext (by match a with | ⟨0, _⟩ => rfl | ⟨1, _⟩ => rfl | ⟨2, _⟩ => rfl)

/-- … and its right operand at (e, d). -/
theorem ridx12 (b : Fin 32) (q : Fin 512) (e d : Fin 1024) : ridx_main_v12 (ix3 b q e) d = ix2 e d :=
  funext fun a => Fin.ext (by match a with | ⟨0, _⟩ => rfl | ⟨1, _⟩ => rfl)

/-- The second contraction reads its left operand at (b, q, d) … -/
theorem lidx13 (b : Fin 32) (q k : Fin 512) (d : Fin 1024) : lidx_main_v13 (ix3 b q k) d = ix3 b q d :=
  funext fun a => Fin.ext (by match a with | ⟨0, _⟩ => rfl | ⟨1, _⟩ => rfl | ⟨2, _⟩ => rfl)

/-- … and its right operand at (b, k, d). -/
theorem ridx13 (b : Fin 32) (q k : Fin 512) (d : Fin 1024) : ridx_main_v13 (ix3 b q k) d = ix3 b k d :=
  funext fun a => Fin.ext (by match a with | ⟨0, _⟩ => rfl | ⟨1, _⟩ => rfl | ⟨2, _⟩ => rfl)

/-- The reference's projected query at batch `b`, position `q`, feature `e`. -/
theorem proj_apply (b : Fin 32) (q : Fin 512) (e : Fin 1024) :
    val_main_v12 (F := Ideal) Q Wi (ix3 b q e)
      = Attn.proj (fun e d => Wi (ix2 e d)) (fun d => Q (ix3 b q d)) e := by
  rw [val_main_v12_apply]
  unfold Attn.proj
  refine Finset.sum_congr rfl fun d _ => ?_
  rw [lidx12, ridx12]

/-! ## The scores -/

/-- The reference's scores at (b, q, k): the projected row against context position `k`. -/
theorem score_apply (b : Fin 32) (q k : Fin 512) :
    val_main_v13 (F := Ideal) Q C Wi (ix3 b q k)
      = Attn.score (fun k d => C (ix3 b k d)) (Attn.proj (fun e d => Wi (ix2 e d)) (fun d => Q (ix3 b q d))) k := by
  rw [val_main_v13_apply]
  unfold Attn.score
  refine Finset.sum_congr rfl fun d _ => ?_
  rw [lidx13, ridx13, proj_apply]

/-! ## The padding mask -/

/-- "The query position is at or past the query length", at (b, q). -/
theorem qpad_apply (b : Fin 32) (q : Fin 512) :
    val_main_v5 (F := Ideal) ql (ix2 b q) = IntOp.cmpi .sge (BitVec.ofNat 32 q.val) (ql (ix1 b)) := by
  rw [val_main_v5_apply, val_main_v3_apply, val_main_v4_apply, val_main_v1_apply, val_main_v2_apply, val_main_v0_apply]
  have h : idx_main_v2 (idx_main_v4 (ix2 b q)) = ix1 b :=
    funext fun a => Fin.ext (by match a with | ⟨0, _⟩ => rfl)
  rw [h]

/-- "The context position is at or past the context length", at (b, k). -/
theorem kpad_apply (b : Fin 32) (k : Fin 512) :
    val_main_v11 (F := Ideal) cl (ix2 b k) = IntOp.cmpi .sge (BitVec.ofNat 32 k.val) (cl (ix1 b)) := by
  rw [val_main_v11_apply, val_main_v9_apply, val_main_v10_apply, val_main_v7_apply, val_main_v8_apply, val_main_v6_apply]
  have h : idx_main_v8 (idx_main_v10 (ix2 b k)) = ix1 b :=
    funext fun a => Fin.ext (by match a with | ⟨0, _⟩ => rfl)
  rw [h]

/-- The mask at (b, q, k) is the padding bit of the row `q` of batch `b` at `k`. -/
theorem mask_apply (b : Fin 32) (q k : Fin 512) :
    val_main_v18 (F := Ideal) ql cl (ix3 b q k)
      = Attn.pad (BitVec.ofNat 32 q.val) (ql (ix1 b)) (cl (ix1 b)) k := by
  rw [val_main_v18_apply, val_main_v16_apply, val_main_v17_apply, val_main_v14_apply, val_main_v15_apply]
  have h1 : idx_main_v14 (idx_main_v16 (ix3 b q k)) = ix2 b q :=
    funext fun a => Fin.ext (by match a with | ⟨0, _⟩ => rfl | ⟨1, _⟩ => rfl)
  have h2 : idx_main_v15 (idx_main_v17 (ix3 b q k)) = ix2 b k :=
    funext fun a => Fin.ext (by match a with | ⟨0, _⟩ => rfl | ⟨1, _⟩ => rfl)
  rw [h1, h2, qpad_apply, kpad_apply]
  rfl

/-! ## The masked scores, their maximum, the exponentials and their sum -/

/-- The masked scores of the row `q` of batch `b`, as Spec.lean composes them. -/
abbrev rowMasked (b : Fin 32) (q : Fin 512) : Fin 512 → EReal :=
  Attn.masked (Attn.pad (BitVec.ofNat 32 q.val) (ql (ix1 b)) (cl (ix1 b)))
    (Attn.score (fun k d => C (ix3 b k d)) (Attn.proj (fun e d => Wi (ix2 e d)) (fun d => Q (ix3 b q d))))

/-- The reference's masked scores at (b, q, k). -/
theorem masked_apply (b : Fin 32) (q k : Fin 512) :
    val_main_v19 (F := Ideal) Q C Wi ql cl (ix3 b q k) = rowMasked Q C Wi ql cl b q k := by
  rw [val_main_v19_apply, mask_apply, score_apply, val_main_call0_v1_apply, val_main_call0_v0_apply, val_main_cst_apply]
  rfl

/-- The result index (b, q) with `k` put back on the reduced axis is (b, q, k). -/
theorem lift_ix (h : S32x512x512.Reduces [2] S32x512) (b : Fin 32) (q k : Fin 512) :
    h.lift (ix2 b q) k = ix3 b q k :=
  funext fun a => Fin.ext (by match a with | ⟨0, _⟩ => rfl | ⟨1, _⟩ => rfl | ⟨2, _⟩ => rfl)

/-- The reference's row maximum at (b, q): the fold from `-∞`; the further maximum with `-∞` changes nothing,
    since a fold of `max` is at least its initial value. -/
theorem rowMax_apply (b : Fin 32) (q : Fin 512) :
    val_main_v22 (F := Ideal) Q C Wi ql cl (ix2 b q) = Attn.rowMax (rowMasked Q C Wi ql cl b q) := by
  have h : S32x512x512.Reduces [2] S32x512 := by decide
  rw [val_main_v22_apply, val_main_v21_apply, val_main_cst_1_apply]
  unfold val_main_v20
  rw [Host.reduce_eq_fold_single FloatOps.maximumf _ _ _ h _]
  have hf : (val_main_v19 (F := Ideal) Q C Wi ql cl ∘ h.lift (ix2 b q)) = rowMasked Q C Wi ql cl b q :=
    funext fun (k : Fin 512) =>
      (congrArg (val_main_v19 (F := Ideal) Q C Wi ql cl) (lift_ix h b q k)).trans (masked_apply Q C Wi ql cl b q k)
  rw [hf, val_main_cst_0_apply]
  unfold Attn.rowMax
  show max (Ideal.ofBits .f32 0xFF800000#32)
      ((Finset.univ : Finset (Fin 512)).fold max (Ideal.ofBits .f32 0xFF800000#32) (rowMasked Q C Wi ql cl b q)) = _
  exact max_eq_right ((Finset.le_fold_max _).2 (Or.inl le_rfl))

/-- The reference's shifted exponentials at (b, q, k). -/
theorem expo_apply (b : Fin 32) (q k : Fin 512) :
    val_main_v26 (F := Ideal) Q C Wi ql cl (ix3 b q k) = Attn.expo (rowMasked Q C Wi ql cl b q) k := by
  rw [val_main_v26_apply, val_main_v25_apply, val_main_v24_apply, val_main_v23_apply]
  have h1 : idx_main_v23 (idx_main_v24 (ix3 b q k)) = ix2 b q :=
    funext fun a => Fin.ext (by match a with | ⟨0, _⟩ => rfl | ⟨1, _⟩ => rfl)
  rw [h1, rowMax_apply, masked_apply]
  rfl

/-- The sum over the row at (b, q) runs over (b, q, k). -/
theorem idx27 (b : Fin 32) (q k : Fin 512) : idx_main_v27 (ix2 b q) k = ix3 b q k :=
  funext fun a => Fin.ext (by match a with | ⟨0, _⟩ => rfl | ⟨1, _⟩ => rfl | ⟨2, _⟩ => rfl)

/-- The reference's normaliser at (b, q): the sum of the row's exponentials (from the zero word, which is 0). -/
theorem denom_apply (b : Fin 32) (q : Fin 512) :
    val_main_v27 (F := Ideal) Q C Wi ql cl (ix2 b q) = Attn.denom (rowMasked Q C Wi ql cl b q) := by
  rw [val_main_v27_apply, val_main_cst_2_apply, Ideal.ofBits_def, Ideal.ofBits_zero_f32, zero_add]
  unfold Attn.denom
  refine Finset.sum_congr rfl fun k _ => ?_
  rw [idx27, expo_apply]

/-- The reference's weights (its second result) at batch `b`, query position `q`, context position `k`. -/
theorem w_apply (b : Fin 32) (q : Fin 512) (k : Fin 512) :
    val_main_v31 (F := Ideal) Q C Wi ql cl (ix3 b q k)
      = Attn.attnW (BitVec.ofNat 32 q.val) (ql (ix1 b)) (cl (ix1 b))
          (fun e d => Wi (ix2 e d)) (fun k d => C (ix3 b k d)) (fun d => Q (ix3 b q d)) k := by
  rw [val_main_v31_apply, mask_apply, val_main_call1_v1_apply, val_main_call1_v0_apply, val_main_cst_3_apply,
    val_main_v30_apply, val_main_v29_apply, val_main_v28_apply]
  have h1 : idx_main_v28 (idx_main_v29 (ix3 b q k)) = ix2 b q :=
    funext fun a => Fin.ext (by match a with | ⟨0, _⟩ => rfl | ⟨1, _⟩ => rfl)
  rw [h1, denom_apply, expo_apply]
  rfl

end Attn.Ref

end
-- ==== Proof.RefOut.lean ====
/-
  The idealized reference's first result, read at one query row and feature: the row `attnOut` of Spec.lean
  of that row of the arguments — the mixed context beside the projected query, through the output projection
  and `tanh`.
-/
import proofs.«414341_j7404523618935_2_alg».proof.Proof.RefRow

noncomputable section

namespace Attn.Ref

open Idealize.ShloMosaic Idealize.ShloMosaic.ValueIdx Cert.ReferenceIdeal Cert.ReferenceIdeal.Read

variable (Q C : (⟨S32x512x1024, .f32⟩ : BufTy).Contents (Elt Ideal)) (Wi : (⟨S1024x1024, .f32⟩ : BufTy).Contents (Elt Ideal))
  (ql cl : (⟨S32, .i32⟩ : BufTy).Contents (Elt Ideal))
  (Wo : (⟨S1024x2048, .f32⟩ : BufTy).Contents (Elt Ideal))

/-- The mixed context at batch `b`, query position `q`, feature `d`: the weights of that row against column `d`
    of the batch's context. -/
theorem mix_apply (b : Fin 32) (q : Fin 512) (d : Fin 1024) :
    val_main_v32 (F := Ideal) Q C Wi ql cl (ix3 b q d)
      = Attn.mix (fun k d => C (ix3 b k d))
          (Attn.attnW (BitVec.ofNat 32 q.val) (ql (ix1 b)) (cl (ix1 b))
            (fun e d => Wi (ix2 e d)) (fun k d => C (ix3 b k d)) (fun d => Q (ix3 b q d))) d := by
  rw [val_main_v32_apply]
  unfold Attn.mix
  refine Finset.sum_congr rfl fun k _ => ?_
  have hl : lidx_main_v32 (ix3 b q d) k = ix3 b q k :=
    funext fun a => Fin.ext (by match a with | ⟨0, _⟩ => rfl | ⟨1, _⟩ => rfl | ⟨2, _⟩ => rfl)
  have hr : ridx_main_v32 (ix3 b q d) k = ix3 b k d :=
    funext fun a => Fin.ext (by match a with | ⟨0, _⟩ => rfl | ⟨1, _⟩ => rfl | ⟨2, _⟩ => rfl)
  rw [hl, hr, w_apply]

/-- The joined row at batch `b`, query position `q`, joined feature `e`: the mixed context's row on the first
    1024 features, the projected query's row on the last 1024. -/
theorem cat_apply (b : Fin 32) (q : Fin 512) (e : Fin 2048) :
    val_main_v33 (F := Ideal) Q C Wi ql cl (ix3 b q e)
      = Attn.joined (fun d' => val_main_v32 (F := Ideal) Q C Wi ql cl (ix3 b q d'))
          (fun e' => val_main_v12 (F := Ideal) Q Wi (ix3 b q e')) e := by
  unfold val_main_v33 Attn.joined
  by_cases h : e.val < 1024
  · rw [dif_pos h]
    exact concatenate_pair_apply_left (t := S32x512x2048) (s₁ := S32x512x1024) (s₂ := S32x512x1024) (2 : Fin 3) _ _ _ (ix3 b q e) rfl (ix3 b q (⟨e.val, h⟩ : Fin 1024))
      (fun a => by match a with | ⟨0, _⟩ => rfl | ⟨1, _⟩ => rfl | ⟨2, _⟩ => rfl)
  · rw [dif_neg h]
    have h2 : e.val - 1024 < 1024 := by have := e.isLt; omega
    exact concatenate_pair_apply_right (t := S32x512x2048) (s₁ := S32x512x1024) (s₂ := S32x512x1024) (2 : Fin 3) _ _ _ (ix3 b q e) rfl rfl (ix3 b q (⟨e.val - 1024, h2⟩ : Fin 1024))
      (fun a ha => by
        match a with
        | ⟨0, _⟩ => rfl
        | ⟨1, _⟩ => rfl
        | ⟨2, _⟩ => exact absurd rfl ha)
      (by show e.val - 1024 + 1024 = e.val; omega)

/-- The reference's output (its first result) at batch `b`, query position `q`, feature `d`. -/
theorem out_apply (b : Fin 32) (q : Fin 512) (d : Fin 1024) :
    val_main_v35 (F := Ideal) Q C Wi Wo ql cl (ix3 b q d)
      = Attn.attnOut (BitVec.ofNat 32 q.val) (ql (ix1 b)) (cl (ix1 b))
          (fun e d => Wi (ix2 e d)) (fun d e => Wo (ix2 d e)) (fun k d => C (ix3 b k d)) (fun d => Q (ix3 b q d)) d := by
  rw [val_main_v35_apply, val_main_v34_apply, Ideal.hostUnary_tanh_def]
  unfold Attn.attnOut Attn.outp
  refine congrArg Ideal.tanh (Finset.sum_congr rfl fun k _ => ?_)
  have hl : lidx_main_v34 (ix3 b q d) k = ix3 b q k :=
    funext fun a => Fin.ext (by match a with | ⟨0, _⟩ => rfl | ⟨1, _⟩ => rfl | ⟨2, _⟩ => rfl)
  have hr : ridx_main_v34 (ix3 b q d) k = ix2 d k :=
    funext fun a => Fin.ext (by match a with | ⟨0, _⟩ => rfl | ⟨1, _⟩ => rfl)
  have hm : (fun d' => val_main_v32 (F := Ideal) Q C Wi ql cl (ix3 b q d'))
      = Attn.mix (fun k d => C (ix3 b k d))
          (Attn.attnW (BitVec.ofNat 32 q.val) (ql (ix1 b)) (cl (ix1 b))
            (fun e d => Wi (ix2 e d)) (fun k d => C (ix3 b k d)) (fun d => Q (ix3 b q d))) :=
    funext fun d' => mix_apply Q C Wi ql cl b q d'
  have hp : (fun e' => val_main_v12 (F := Ideal) Q Wi (ix3 b q e'))
      = Attn.proj (fun e d => Wi (ix2 e d)) (fun d => Q (ix3 b q d)) :=
    funext fun e' => proj_apply Q Wi b q e'
  rw [hl, hr, cat_apply, hm, hp]

end Attn.Ref

end
-- ==== Proof.lean ====
/-
  The certificate of a masked dot-product attention block with input and output projections against its
  jnp reference, over the extended reals.

  Both programs compute, for every batch `b` and query position `q`: the projected query `p = x · W_inᵀ`; its
  scores against the 512 context positions; the scores with padded positions (query position at or past the
  query length, or context position at or past the context length) replaced by the finite stand-in `-1e9`; the
  softmax of that row (maximum folded from `-∞`, shifted exponentials, their sum, the quotient) with the padded
  positions zeroed afterwards — the second result —; the context mixed by those weights; and `tanh` of the mixed
  context beside the projected query through `W_outᵀ` — the first result (Proof/Spec.lean states this as
  functions of one query row).
  The kernel computes it one (batch, 256-row query tile) at a time from bf16 copies of the arguments and
  transposed weights; at the ideal instance a change of float format is the identity, a matrix product into a
  zero accumulator is the plain sum of products, and the kernel's row reductions and the reference's are the
  same fold and the same sum; the reference's additional maximum with `-∞` changes nothing. No step uses a
  law that needs finiteness: the two sides are the same sums of the same products in the same order of factors.
    Proof/KerRow.lean, Proof/KerPay.lean   the kernel's body read at a row of its block
    Proof/KerVal.lean                      the kernel's run: blocks to arrays
    Proof/RefRow.lean, Proof/RefOut.lean   the reference read at a row
  The ideal pass rewrote nothing, so `preserves` is trivial; the frames are the generated ones (the kernel's
  index maps read no length table, so their side condition is empty).
-/
import proofs.«414341_j7404523618935_2_alg».proof.Defs
import proofs.«414341_j7404523618935_2_alg».proof.Proof.Gen.Kernel
import proofs.«414341_j7404523618935_2_alg».proof.Proof.Gen.Kernel.Skeleton
import proofs.«414341_j7404523618935_2_alg».proof.Proof.Gen.Kernel.Launch
import proofs.«414341_j7404523618935_2_alg».proof.Proof.Gen.Kernel.Points
import proofs.«414341_j7404523618935_2_alg».proof.Proof.Gen.Kernel.Frame
import proofs.«414341_j7404523618935_2_alg».proof.Proof.Gen.KernelIdeal
import proofs.«414341_j7404523618935_2_alg».proof.Proof.Gen.KernelIdeal.Skeleton
import proofs.«414341_j7404523618935_2_alg».proof.Proof.Gen.KernelIdeal.Launch
import proofs.«414341_j7404523618935_2_alg».proof.Proof.Gen.KernelIdeal.Points
import proofs.«414341_j7404523618935_2_alg».proof.Proof.Gen.KernelIdeal.Frame
import proofs.«414341_j7404523618935_2_alg».proof.Proof.Gen.ReferenceIdeal
import proofs.«414341_j7404523618935_2_alg».proof.Proof.RefRun
import proofs.«414341_j7404523618935_2_alg».proof.Proof.RefRead
import proofs.«414341_j7404523618935_2_alg».proof.Proof.Gen.Pre_finite_inputs
import proofs.«414341_j7404523618935_2_alg».proof.Proof.KerVal
import proofs.«414341_j7404523618935_2_alg».proof.Proof.RefOut
import Idealize.ShloMosaic.Adequacy
import Idealize.ShloMosaic.Init

noncomputable section

namespace Cert.Proof

open Idealize.ShloMosaic Idealize.ShloMosaic.ValueIdx Idealize.SL.Sem

/-- The word-level kernel runs and keeps its arguments: the generated frame, whose side condition on the
    length tables is empty. -/
theorem frame_k : Cert.frame_Kernel := fun m ρ _ => Cert.Kernel.Gen.frame m ρ trivial
/-- The idealized kernel likewise. -/
theorem frame_ki : Cert.frame_KernelIdeal := fun m ρ _ => Cert.KernelIdeal.Gen.frame m ρ trivial
/-- The reference runs and keeps its arguments: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- At the ideal instance the kernel's two result arrays end at the attention output and the attention weights of
    the arguments, row by row (Proof/KerVal.lean), and so do the reference's (Proof/RefOut.lean, Proof/RefRow.lean)
    of arguments that agree. -/
theorem algebraic : Cert.algebraic_KernelIdeal_ReferenceIdeal := by
  intro m ρ m' ρ' _ hagree
  refine ⟨fun c => Cert.KernelIdeal.RowValue.outArr m c, fun c => Cert.KernelIdeal.RowValue.wArr m c,
    Cert.KernelIdeal.RowValue.run m ρ, ?_⟩
  refine (θ_run Cert.ReferenceIdeal.defs _ _).mono (fun _ h c => ?_) (Cert.ReferenceIdeal.Value.run (F := Ideal) m' ρ')
  obtain ⟨h35, h31, hargs⟩ := h c
  obtain ⟨e0, e1, e2, e3, e4, e5⟩ := hagree c
  refine ⟨h35.trans ?_, h31.trans ?_, hargs⟩
  · rw [Cert.ReferenceIdeal.Read.val_main_v35_eq, e0, e1, e2, e3, e4, e5]
    funext j
    obtain ⟨b, q, d, rfl⟩ : ∃ (b : Fin 32) (q : Fin 512) (d : Fin 1024), j = ix3 b q d := ⟨j 0, j 1, j 2, eq_ix3 j⟩
    rw [Attn.Ref.out_apply]
    rfl
  · rw [Cert.ReferenceIdeal.Read.val_main_v31_eq, e0, e1, e2, e4, e5]
    funext j
    obtain ⟨b, q, k, rfl⟩ : ∃ (b : Fin 32) (q : Fin 512) (k : Fin 512), j = ix3 b q k := ⟨j 0, j 1, j 2, eq_ix3 j⟩
    rw [Attn.Ref.w_apply]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
